-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x2048 : Shape := ⟨2, ![2048, 2048]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S2048x2048 .f32) (main_arg2 : FVec F S1024x1024 .f32) (main_arg3 : FVec F S1024x1024 .f32) (main_arg4 : FVec F S1024x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S2048x2048 : Shape := ⟨2, ![2048, 2048]⟩
abbrev S1024x1024 : Shape := ⟨2, ![1024, 1024]⟩
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x512 : Shape := ⟨2, ![1024, 512]⟩
abbrev S512x512 : Shape := ⟨2, ![512, 512]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x2048 : Shape := ⟨2, ![512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩

abbrev nBuf : Space → Nat
  | .hbm => 38
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2048x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x3072, .f32⟩
  | .hbm, ⟨12, _⟩ => ⟨S1024x3072, .bf16⟩
  | .hbm, ⟨13, _⟩ => ⟨S4096x3072, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S2x2048x16x64, .f32⟩
  | .hbm, ⟨18, _⟩ => ⟨S2x16x2048x64, .f32⟩
  | .hbm, ⟨19, _⟩ => ⟨S32x2048x64, .f32⟩
  | .hbm, ⟨20, _⟩ => ⟨S32x2048x64, .bf16⟩
  | .hbm, ⟨21, _⟩ => ⟨S2x2048x16x64, .f32⟩
  | .hbm, ⟨22, _⟩ => ⟨S2x16x2048x64, .f32⟩
  | .hbm, ⟨23, _⟩ => ⟨S32x2048x64, .f32⟩
  | .hbm, ⟨24, _⟩ => ⟨S32x2048x64, .bf16⟩
  | .hbm, ⟨25, _⟩ => ⟨S2x2048x16x64, .f32⟩
  | .hbm, ⟨26, _⟩ => ⟨S2x16x2048x64, .f32⟩
  | .hbm, ⟨27, _⟩ => ⟨S32x2048x64, .f32⟩
  | .hbm, ⟨28, _⟩ => ⟨S32x2048x64, .bf16⟩
  | .hbm, ⟨29, _⟩ => ⟨S32x2048x64, .f32⟩
  | .hbm, ⟨30, _⟩ => ⟨S2x16x2048x64, .f32⟩
  | .hbm, ⟨31, _⟩ => ⟨S2x2048x16x64, .f32⟩
  | .hbm, ⟨32, _⟩ => ⟨S4096x1024, .f32⟩
  | .hbm, ⟨33, _⟩ => ⟨S4096x1024, .bf16⟩
  | .hbm, ⟨34, _⟩ => ⟨S1024x1024, .f32⟩
  | .hbm, ⟨35, _⟩ => ⟨S1024x1024, .bf16⟩
  | .hbm, ⟨36, _⟩ => ⟨S4096x1024, .f32⟩
  | .hbm, ⟨37, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S512x2048, .f32⟩
  | .local _ .vmem, ⟨13, _⟩ => ⟨S512x2048, .f32⟩
  | .local _ .vmem, ⟨14, _⟩ => ⟨S1x512x64, .f32⟩
  | .local _ .vmem, ⟨15, _⟩ => ⟨S1x512x64, .f32⟩
  | .local _ .vmem, ⟨16, _⟩ => ⟨S512x1024, .bf16⟩
  | .local _ .vmem, ⟨17, _⟩ => ⟨S512x1024, .bf16⟩
  | .local _ .vmem, ⟨18, _⟩ => ⟨S1024x512, .bf16⟩
  | .local _ .vmem, ⟨19, _⟩ => ⟨S1024x512, .bf16⟩
  | .local _ .vmem, ⟨20, _⟩ => ⟨S512x512, .f32⟩
  | .local _ .vmem, ⟨21, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x1024_S4096x1024 : S2x2048x1024.ShapeCasts S4096x1024
  bitsLt_bf16_f32 : FTy.bits .bf16 < FTy.bits .f32
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x512_S512x512_1_0_0_1_n_n_wf : DotDims.WF S512x1024 S1024x512 S512x512 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x3072.size a
  hwx0_1 : ∀ i : grid0.Coords, EltTy.bits .bf16 = 32 ∨ (Rect.block (s := S1024x3072) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x3072.size a
  hwx0_2 : ∀ i : grid0.Coords, EltTy.bits .f32 = 32 ∨ (Rect.block (s := S4096x3072) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .f32 = 32 ∨ (Rect.block (s := S2048x2048) S512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x64.size a ≤ S32x2048x64.size a
  hwx1_4 : ∀ i : grid1.Coords, EltTy.bits .f32 = 32 ∨ (Rect.block (s := S32x2048x64) S1x512x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x1024.size a
  hwx2_1 : ∀ i : grid2.Coords, EltTy.bits .bf16 = 32 ∨ (Rect.block (s := S1024x1024) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x1024.size a
  hwx2_2 : ∀ i : grid2.Coords, EltTy.bits .f32 = 32 ∨ (Rect.block (s := S4096x1024) S512x512.size (cc2_transform_2 i) (hinb2_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2048x2048 : Shape := ⟨2, ![2048, 2048]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2048x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S1x1x2048x2048, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S_, .f32⟩
  | .hbm, ⟨27, _⟩ => ⟨S2x16x2048x1, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Region0.lean ====
/-
  The first matrix product, one grid point at a time.

  The grid is 8 × 6: point (i, j) multiplies rows 512·i … 512·i+511 of the 4096 × 1024 activations by columns
  512·j … 512·j+511 of the 1024 × 3072 stacked weights and stores the 512 × 512 product into block (i, j) of the result.
  Everything here is stated at arbitrary contents `V` of the buffers on entry: what each window's block is at a point,
  what the body leaves in the output block (its one store, of the product of the two loaded blocks), and that the body,
  run on the staging buffers holding those blocks, terminates leaving the inputs as they were and the output block at
  that product. The body also loads the output block before overwriting it; the loaded value is not used.
-/
import proofs.«156318_j51161650430216_1_alg».proof.Proof.Gen.Kernel.Launch
import proofs.«156318_j51161650430216_1_alg».proof.Proof.Gen.Kernel.Skeleton
import proofs.«156318_j51161650430216_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block whether or not the point fetches it (the row block
    changes only every sixth point), for any proof data over `V` whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the point's column block likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_0 : Rect S512x1024 := Rect.unit (s := S512x1024) ![0, 0] S512x1024.size inb_S512x1024_S512x1024_0_0
abbrev r0_1 : Rect S1024x512 := Rect.unit (s := S1024x512) ![0, 0] S1024x512.size inb_S1024x512_S1024x512_0_0
abbrev r0_2 : Rect S512x512 := Rect.unit (s := S512x512) ![0, 0] S512x512.size inb_S512x512_S512x512_0_0

/-- What the body leaves in the output block, from the two input blocks: its one store, of their product. -/
def out0_2 (x0 : Vec F S512x1024 .bf16) (x1 : Vec F S1024x512 .bf16) : Vec F S512x512 .f32 :=
  View.canon [⟨r0_2, k0_pay1 (View.ld x0 r0_0) (View.ld x1 r0_1)⟩]

/-- The one store covers the block. -/
theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The body on whole staging buffers, the inputs' at `x0`, `x1` and the output's at anything, runs to its end with the
    inputs' unchanged and the output's at `out0_2 x0 x1`. -/
theorem sound_kernel0 (c : Dev nD) (E : Set ℕ) (i : grid0.Coords) (arg2 : Memref sig .tc .vmem S512x1024 .bf16) (harg2 : arg2.IsWhole)
    (arg3 : Memref sig .tc .vmem S1024x512 .bf16) (harg3 : arg3.IsWhole) (arg4 : Memref sig .tc .vmem S512x512 .f32) (harg4 : arg4.IsWhole)
    (x0 : Vec F S512x1024 .bf16) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Pipeline 0 on core `c`: the arrays as the region finds them; after the body at point `t` each input's buffer still at
    its block and the output's at `out0_2` of the input blocks; nothing else of the core is touched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  The attention kernel, one grid point at a time.

  The grid is 4 × 32: point (i, g) takes query rows 512·i … 512·i+511 of head-batch g (a 1 × 512 × 64 block), all 2048 keys
  and all 2048 values of g (1 × 2048 × 64 blocks) and rows 512·i … 512·i+511 of the mask (512 × 2048), and stores the
  1 × 512 × 64 attention output into block (g, i) of the result. Everything here is stated at arbitrary contents `V` of the
  buffers on entry: each window's block at a point, what the body leaves in the output block (its one store, of the
  payload of the four loaded blocks), and that the body, run on staging buffers holding those blocks, terminates leaving
  the inputs as they were and the output block at that payload. The body also loads the output block before overwriting
  it; the loaded value is not used. The mask's block changes only every 32nd point.
-/
import proofs.«156318_j51161650430216_1_alg».proof.Proof.Gen.Kernel.Launch
import proofs.«156318_j51161650430216_1_alg».proof.Proof.Gen.Kernel.Skeleton
import proofs.«156318_j51161650430216_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block whether or not the point fetches it, for any proof data over `V`
    whose body leaves that buffer alone: the queries', -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the keys', -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the values', -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- and the mask's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole block -/

abbrev r1_0 : Rect S1x512x64 := Rect.unit (s := S1x512x64) ![0, 0, 0] S1x512x64.size inb_S1x512x64_S1x512x64_0_0_0
abbrev r1_1 : Rect S1x2048x64 := Rect.unit (s := S1x2048x64) ![0, 0, 0] S1x2048x64.size inb_S1x2048x64_S1x2048x64_0_0_0
abbrev r1_3 : Rect S512x2048 := Rect.unit (s := S512x2048) ![0, 0] S512x2048.size inb_S512x2048_S512x2048_0_0

/-- What the body leaves in the output block, from the four input blocks: its one store. -/
def out1_4 (x0 : Vec F S1x512x64 .bf16) (x1 x2 : Vec F S1x2048x64 .bf16) (x3 : Vec F S512x2048 .f32) : Vec F S1x512x64 .f32 :=
  View.canon [⟨r1_0, k1_pay1 (View.ld x0 r1_0) (View.ld x1 r1_1) (View.ld x2 r1_1) (View.ld x3 r1_3)⟩]

/-- The one store covers the block. -/
theorem cover1_4 (p0 : Vec F S1x512x64 .f32) (y : S1x512x64.Idx) :
    ∃ pc ∈ ([⟨r1_0, p0⟩] : List (View.Piece (Elt F) S1x512x64 .f32)), y ∈ pc.1.set :=
  View.cover_of_tiled [⟨r1_0, p0⟩] S1x512x64.size (by rfl) y

/-! ## The body's triple -/

set_option maxHeartbeats 1000000 in
/-- The body on whole staging buffers, the inputs' at `x0 … x3` and the output's at anything, runs to its end with the
    inputs' unchanged and the output's at `out1_4 x0 x1 x2 x3`. -/
theorem sound_kernel1 (c : Dev nD) (E : Set ℕ) (i : grid1.Coords) (arg2 : Memref sig .tc .vmem S1x512x64 .bf16) (harg2 : arg2.IsWhole)
    (arg3 : Memref sig .tc .vmem S1x2048x64 .bf16) (harg3 : arg3.IsWhole) (arg4 : Memref sig .tc .vmem S1x2048x64 .bf16) (harg4 : arg4.IsWhole)
    (arg5 : Memref sig .tc .vmem S512x2048 .f32) (harg5 : arg5.IsWhole) (arg6 : Memref sig .tc .vmem S1x512x64 .f32) (harg6 : arg6.IsWhole)
    (x0 : Vec F S1x512x64 .bf16) (x1 x2 : Vec F S1x2048x64 .bf16) (x3 : Vec F S512x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the pipeline -/

/-- Pipeline 1 on core `c`: the arrays as the region finds them; after the body at point `t` each input's buffer still at
    its block and the output's at `out1_4` of the input blocks; nothing else of the core is touched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
/-
  The last matrix product, one grid point at a time.

  The grid is 8 × 2: point (i, j) multiplies rows 512·i … 512·i+511 of the 4096 × 1024 merged attention outputs by columns
  512·j … 512·j+511 of the 1024 × 1024 transposed output weights and stores the 512 × 512 product into block (i, j) of the result.
  Everything here is stated at arbitrary contents `V` of the buffers on entry: what each window's block is at a point,
  what the body leaves in the output block (its one store, of the product of the two loaded blocks), and that the body,
  run on the staging buffers holding those blocks, terminates leaving the inputs as they were and the output block at
  that product. The body also loads the output block before overwriting it; the loaded value is not used.
-/
import proofs.«156318_j51161650430216_1_alg».proof.Proof.Gen.Kernel.Launch
import proofs.«156318_j51161650430216_1_alg».proof.Proof.Gen.Kernel.Skeleton
import proofs.«156318_j51161650430216_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The merged outputs' staging buffer holds the point's row block whether or not the point fetches it (the row block
    changes only every second point), for any proof data over `V` whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the point's column block likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole block -/

abbrev r2_0 : Rect S512x1024 := Rect.unit (s := S512x1024) ![0, 0] S512x1024.size inb_S512x1024_S512x1024_0_0
abbrev r2_1 : Rect S1024x512 := Rect.unit (s := S1024x512) ![0, 0] S1024x512.size inb_S1024x512_S1024x512_0_0
abbrev r2_2 : Rect S512x512 := Rect.unit (s := S512x512) ![0, 0] S512x512.size inb_S512x512_S512x512_0_0

/-- What the body leaves in the output block, from the two input blocks: its one store, of their product. -/
def out2_2 (x0 : Vec F S512x1024 .bf16) (x1 : Vec F S1024x512 .bf16) : Vec F S512x512 .f32 :=
  View.canon [⟨r2_2, k2_pay1 (View.ld x0 r2_0) (View.ld x1 r2_1)⟩]

/-- The one store covers the block. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's triple -/

set_option maxHeartbeats 1000000 in
/-- The body on whole staging buffers, the inputs' at `x0`, `x1` and the output's at anything, runs to its end with the
    inputs' unchanged and the output's at `out2_2 x0 x1`. -/
theorem sound_kernel2 (c : Dev nD) (E : Set ℕ) (i : grid2.Coords) (arg2 : Memref sig .tc .vmem S512x1024 .bf16) (harg2 : arg2.IsWhole)
    (arg3 : Memref sig .tc .vmem S1024x512 .bf16) (harg3 : arg3.IsWhole) (arg4 : Memref sig .tc .vmem S512x512 .f32) (harg4 : arg4.IsWhole)
    (x0 : Vec F S512x1024 .bf16) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- Pipeline 2 on core `c`: the arrays as the region finds them; after the body at point `t` each input's buffer still at
    its block and the output's at `out2_2` of the input blocks; nothing else of the core is touched; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The whole program's run, from the launch to the return.

  @main is seven items: a stretch of host operations, the first kernel call, a stretch, the second call, a stretch, the
  third call, a last stretch. The contents of the core's buffers at the eight boundaries are a fold from the launch
  memory: a host stretch applies its operations; a kernel call leaves each of its windows' arrays at what the pipeline's
  write-backs fold to (an input array as entered) and every other buffer as entered. Each kernel call is run from the
  contents at its entry by its body obligation; the program's run ends with every unscoped buffer at the last boundary's
  contents, from which the frame (each argument as launched) and the result's value are read.
-/
import proofs.«156318_j51161650430216_1_alg».proof.Proof.K.Region0
import proofs.«156318_j51161650430216_1_alg».proof.Proof.K.Region1
import proofs.«156318_j51161650430216_1_alg».proof.Proof.K.Region2
import proofs.«156318_j51161650430216_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Bd0 : Dev nD → Valuation τ sig (Elt F) := fun c b => m (c, b)
/-- After the first host stretch: what the first kernel call is entered with. -/
abbrev Bd1 : Dev nD → Valuation τ sig (Elt F) := fun c => StableHlo.after hostOps0 (Bd0 m c)
/-- The same read at the core's references. -/
abbrev At1 : (c : Dev nD) → (b : Ref sig .tc) → Buf (Elt F) ((c : Thread nD τ).loc b) := fun c b => Bd1 m c b

/-- On leaving the first kernel call: its windows' arrays at what the pipeline leaves (an input as entered, the output at its
    write-backs folded), every other buffer as entered. -/
def Bd2 (c : Dev nD) : Valuation τ sig (Elt F) :=
  Pipeline.withArrays spec0 c (Bd1 m c) fun w => (dat0 (At1 m) c).arrAt w cfg0.N
theorem Bd2_arr (c : Dev nD) (w : Fin cfg0.W) :
    Bd2 m c (Proc.devRef .tc (Pipeline.arrRef spec0 w)) = (dat0 (At1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
/-- The same read at the core's references. -/
abbrev Ex2 : (c : Dev nD) → (b : Ref sig .tc) → Buf (Elt F) ((c : Thread nD τ).loc b) := fun c b => Bd2 m c b
theorem hF0 (c : Dev nD) (w : Fin cfg0.W) : (dat0 (At1 m) c).arrAt w cfg0.N = Ex2 m c (Pipeline.arrRef spec0 w) :=
  (Bd2_arr m c w).symm
theorem hrest0 (c : Dev nD) : ∀ b, b ∉ Finset.univ.image (Pipeline.arrRef spec0) → Ex2 m c b = At1 m c b :=
  fun b hb => Bd2_of_ne m c b fun w e => hb (Finset.mem_image.mpr ⟨w, Finset.mem_univ _, e⟩)

/-- After the second host stretch: what the second kernel call is entered with. -/
abbrev Bd3 : Dev nD → Valuation τ sig (Elt F) := fun c => StableHlo.after hostOps1 (Bd2 m c)
abbrev At3 : (c : Dev nD) → (b : Ref sig .tc) → Buf (Elt F) ((c : Thread nD τ).loc b) := fun c b => Bd3 m c b

/-- On leaving the second kernel call: its windows' arrays at what the pipeline leaves (an input as entered, the output at its
    write-backs folded), every other buffer as entered. -/
def Bd4 (c : Dev nD) : Valuation τ sig (Elt F) :=
  Pipeline.withArrays spec1 c (Bd3 m c) fun w => (dat1 (At3 m) c).arrAt w cfg1.N
theorem Bd4_arr (c : Dev nD) (w : Fin cfg1.W) :
    Bd4 m c (Proc.devRef .tc (Pipeline.arrRef spec1 w)) = (dat1 (At3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
/-- The same read at the core's references. -/
abbrev Ex4 : (c : Dev nD) → (b : Ref sig .tc) → Buf (Elt F) ((c : Thread nD τ).loc b) := fun c b => Bd4 m c b
theorem hF1 (c : Dev nD) (w : Fin cfg1.W) : (dat1 (At3 m) c).arrAt w cfg1.N = Ex4 m c (Pipeline.arrRef spec1 w) :=
  (Bd4_arr m c w).symm
theorem hrest1 (c : Dev nD) : ∀ b, b ∉ Finset.univ.image (Pipeline.arrRef spec1) → Ex4 m c b = At3 m c b :=
  fun b hb => Bd4_of_ne m c b fun w e => hb (Finset.mem_image.mpr ⟨w, Finset.mem_univ _, e⟩)

/-- After the third host stretch: what the third kernel call is entered with. -/
abbrev Bd5 : Dev nD → Valuation τ sig (Elt F) := fun c => StableHlo.after hostOps2 (Bd4 m c)
abbrev At5 : (c : Dev nD) → (b : Ref sig .tc) → Buf (Elt F) ((c : Thread nD τ).loc b) := fun c b => Bd5 m c b

/-- On leaving the third kernel call: its windows' arrays at what the pipeline leaves (an input as entered, the output at its
    write-backs folded), every other buffer as entered. -/
def Bd6 (c : Dev nD) : Valuation τ sig (Elt F) :=
  Pipeline.withArrays spec2 c (Bd5 m c) fun w => (dat2 (At5 m) c).arrAt w cfg2.N
theorem Bd6_arr (c : Dev nD) (w : Fin cfg2.W) :
    Bd6 m c (Proc.devRef .tc (Pipeline.arrRef spec2 w)) = (dat2 (At5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
/-- The same read at the core's references. -/
abbrev Ex6 : (c : Dev nD) → (b : Ref sig .tc) → Buf (Elt F) ((c : Thread nD τ).loc b) := fun c b => Bd6 m c b
theorem hF2 (c : Dev nD) (w : Fin cfg2.W) : (dat2 (At5 m) c).arrAt w cfg2.N = Ex6 m c (Pipeline.arrRef spec2 w) :=
  (Bd6_arr m c w).symm
theorem hrest2 (c : Dev nD) : ∀ b, b ∉ Finset.univ.image (Pipeline.arrRef spec2) → Ex6 m c b = At5 m c b :=
  fun b hb => Bd6_of_ne m c b fun w e => hb (Finset.mem_image.mpr ⟨w, Finset.mem_univ _, e⟩)

/-- After the last host stretch: at the return. -/
abbrev Bd7 : Dev nD → Valuation τ sig (Elt F) := fun c => StableHlo.after hostOps3 (Bd6 m c)

/-! ## The arguments end as launched -/

/-- `main_arg0` reaches the end as launched: no host operation writes it and no kernel call's output array is it. -/
theorem Bd7_main_arg0 (c : Dev nD) : Bd7 m c (Proc.devRef .tc main_arg0) = m ((c : Thread nD τ).loc main_arg0) :=
  calc Bd7 m c (Proc.devRef .tc main_arg0)
    _ = Bd6 m c (Proc.devRef .tc main_arg0) := StableHlo.after_of_writes_sub hostOps3 _ hostOps3_writes (r := main_arg0) (by decide)
    _ = Bd5 m c (Proc.devRef .tc main_arg0) := Bd6_of_ne m c main_arg0 (by decide)
    _ = Bd4 m c (Proc.devRef .tc main_arg0) := StableHlo.after_of_writes_sub hostOps2 _ hostOps2_writes (r := main_arg0) (by decide)
    _ = Bd3 m c (Proc.devRef .tc main_arg0) := Bd4_of_ne m c main_arg0 (by decide)
    _ = Bd2 m c (Proc.devRef .tc main_arg0) := StableHlo.after_of_writes_sub hostOps1 _ hostOps1_writes (r := main_arg0) (by decide)
    _ = Bd1 m c (Proc.devRef .tc main_arg0) := Bd2_of_ne m c main_arg0 (by decide)
    _ = Bd0 m c (Proc.devRef .tc main_arg0) := StableHlo.after_of_writes_sub hostOps0 _ hostOps0_writes (r := main_arg0) (by decide)
    _ = m ((c : Thread nD τ).loc main_arg0) := rfl

/-- `main_arg1` reaches the end as launched: no host operation writes it and no kernel call's output array is it. -/
theorem Bd7_main_arg1 (c : Dev nD) : Bd7 m c (Proc.devRef .tc main_arg1) = m ((c : Thread nD τ).loc main_arg1) :=
  calc Bd7 m c (Proc.devRef .tc main_arg1)
    _ = Bd6 m c (Proc.devRef .tc main_arg1) := StableHlo.after_of_writes_sub hostOps3 _ hostOps3_writes (r := main_arg1) (by decide)
    _ = Bd5 m c (Proc.devRef .tc main_arg1) := Bd6_of_ne m c main_arg1 (by decide)
    _ = Bd4 m c (Proc.devRef .tc main_arg1) := StableHlo.after_of_writes_sub hostOps2 _ hostOps2_writes (r := main_arg1) (by decide)
    _ = Bd3 m c (Proc.devRef .tc main_arg1) := (Bd4_arr m c 3).trans (((dat1 (At3 m) c).arrAt_in 3 rfl _).trans (A_eq1 (At3 m) c 3))
    _ = Bd2 m c (Proc.devRef .tc main_arg1) := StableHlo.after_of_writes_sub hostOps1 _ hostOps1_writes (r := main_arg1) (by decide)
    _ = Bd1 m c (Proc.devRef .tc main_arg1) := Bd2_of_ne m c main_arg1 (by decide)
    _ = Bd0 m c (Proc.devRef .tc main_arg1) := StableHlo.after_of_writes_sub hostOps0 _ hostOps0_writes (r := main_arg1) (by decide)
    _ = m ((c : Thread nD τ).loc main_arg1) := rfl

/-- `main_arg2` reaches the end as launched: no host operation writes it and no kernel call's output array is it. -/
theorem Bd7_main_arg2 (c : Dev nD) : Bd7 m c (Proc.devRef .tc main_arg2) = m ((c : Thread nD τ).loc main_arg2) :=
  calc Bd7 m c (Proc.devRef .tc main_arg2)
    _ = Bd6 m c (Proc.devRef .tc main_arg2) := StableHlo.after_of_writes_sub hostOps3 _ hostOps3_writes (r := main_arg2) (by decide)
    _ = Bd5 m c (Proc.devRef .tc main_arg2) := Bd6_of_ne m c main_arg2 (by decide)
    _ = Bd4 m c (Proc.devRef .tc main_arg2) := StableHlo.after_of_writes_sub hostOps2 _ hostOps2_writes (r := main_arg2) (by decide)
    _ = Bd3 m c (Proc.devRef .tc main_arg2) := Bd4_of_ne m c main_arg2 (by decide)
    _ = Bd2 m c (Proc.devRef .tc main_arg2) := StableHlo.after_of_writes_sub hostOps1 _ hostOps1_writes (r := main_arg2) (by decide)
    _ = Bd1 m c (Proc.devRef .tc main_arg2) := Bd2_of_ne m c main_arg2 (by decide)
    _ = Bd0 m c (Proc.devRef .tc main_arg2) := StableHlo.after_of_writes_sub hostOps0 _ hostOps0_writes (r := main_arg2) (by decide)
    _ = m ((c : Thread nD τ).loc main_arg2) := rfl

/-- `main_arg3` reaches the end as launched: no host operation writes it and no kernel call's output array is it. -/
theorem Bd7_main_arg3 (c : Dev nD) : Bd7 m c (Proc.devRef .tc main_arg3) = m ((c : Thread nD τ).loc main_arg3) :=
  calc Bd7 m c (Proc.devRef .tc main_arg3)
    _ = Bd6 m c (Proc.devRef .tc main_arg3) := StableHlo.after_of_writes_sub hostOps3 _ hostOps3_writes (r := main_arg3) (by decide)
    _ = Bd5 m c (Proc.devRef .tc main_arg3) := Bd6_of_ne m c main_arg3 (by decide)
    _ = Bd4 m c (Proc.devRef .tc main_arg3) := StableHlo.after_of_writes_sub hostOps2 _ hostOps2_writes (r := main_arg3) (by decide)
    _ = Bd3 m c (Proc.devRef .tc main_arg3) := Bd4_of_ne m c main_arg3 (by decide)
    _ = Bd2 m c (Proc.devRef .tc main_arg3) := StableHlo.after_of_writes_sub hostOps1 _ hostOps1_writes (r := main_arg3) (by decide)
    _ = Bd1 m c (Proc.devRef .tc main_arg3) := Bd2_of_ne m c main_arg3 (by decide)
    _ = Bd0 m c (Proc.devRef .tc main_arg3) := StableHlo.after_of_writes_sub hostOps0 _ hostOps0_writes (r := main_arg3) (by decide)
    _ = m ((c : Thread nD τ).loc main_arg3) := rfl

/-- `main_arg4` reaches the end as launched: no host operation writes it and no kernel call's output array is it. -/
theorem Bd7_main_arg4 (c : Dev nD) : Bd7 m c (Proc.devRef .tc main_arg4) = m ((c : Thread nD τ).loc main_arg4) :=
  calc Bd7 m c (Proc.devRef .tc main_arg4)
    _ = Bd6 m c (Proc.devRef .tc main_arg4) := StableHlo.after_of_writes_sub hostOps3 _ hostOps3_writes (r := main_arg4) (by decide)
    _ = Bd5 m c (Proc.devRef .tc main_arg4) := Bd6_of_ne m c main_arg4 (by decide)
    _ = Bd4 m c (Proc.devRef .tc main_arg4) := StableHlo.after_of_writes_sub hostOps2 _ hostOps2_writes (r := main_arg4) (by decide)
    _ = Bd3 m c (Proc.devRef .tc main_arg4) := Bd4_of_ne m c main_arg4 (by decide)
    _ = Bd2 m c (Proc.devRef .tc main_arg4) := StableHlo.after_of_writes_sub hostOps1 _ hostOps1_writes (r := main_arg4) (by decide)
    _ = Bd1 m c (Proc.devRef .tc main_arg4) := Bd2_of_ne m c main_arg4 (by decide)
    _ = Bd0 m c (Proc.devRef .tc main_arg4) := StableHlo.after_of_writes_sub hostOps0 _ hostOps0_writes (r := main_arg4) (by decide)
    _ = m ((c : Thread nD τ).loc main_arg4) := rfl

/-- `main_arg5` reaches the end as launched: no host operation writes it and no kernel call's output array is it. -/
theorem Bd7_main_arg5 (c : Dev nD) : Bd7 m c (Proc.devRef .tc main_arg5) = m ((c : Thread nD τ).loc main_arg5) :=
  calc Bd7 m c (Proc.devRef .tc main_arg5)
    _ = Bd6 m c (Proc.devRef .tc main_arg5) := StableHlo.after_of_writes_sub hostOps3 _ hostOps3_writes (r := main_arg5) (by decide)
    _ = Bd5 m c (Proc.devRef .tc main_arg5) := Bd6_of_ne m c main_arg5 (by decide)
    _ = Bd4 m c (Proc.devRef .tc main_arg5) := StableHlo.after_of_writes_sub hostOps2 _ hostOps2_writes (r := main_arg5) (by decide)
    _ = Bd3 m c (Proc.devRef .tc main_arg5) := Bd4_of_ne m c main_arg5 (by decide)
    _ = Bd2 m c (Proc.devRef .tc main_arg5) := StableHlo.after_of_writes_sub hostOps1 _ hostOps1_writes (r := main_arg5) (by decide)
    _ = Bd1 m c (Proc.devRef .tc main_arg5) := Bd2_of_ne m c main_arg5 (by decide)
    _ = Bd0 m c (Proc.devRef .tc main_arg5) := StableHlo.after_of_writes_sub hostOps0 _ hostOps0_writes (r := main_arg5) (by decide)
    _ = m ((c : Thread nD τ).loc main_arg5) := rfl

/-! ## The proof data family and the thread state -/

/-- No kernel call has a prefetched table. -/
abbrev tabs : (p : Fin 3) → (pcfgs (F := F) p).Adm := fun p => (cfgs p).toPCfg_adm
/-- Each pipeline's proof data at its call's entry contents. -/
def pdat : (p : Fin 3) → (c : Dev nD) → Dat τ (Elt F) Unit ℕ (UR sig nD τ) ℕ (Pipeline.pin (pcfgs (F := F)) tabs p) c
  | ⟨0, _⟩ => fun c => dat0 (At1 m) c
  | ⟨1, _⟩ => fun c => dat1 (At3 m) c
  | ⟨2, _⟩ => fun c => dat2 (At5 m) c
abbrev vars0 : Variants := Variants.none
/-- No core waits on another: no level is assigned. -/
abbrev Lnone : GSem nD τ sig → Finset Unit := fun _ => ∅
abbrev lvl0 : GSem nD τ sig → Unit → ℕ := fun _ _ => 0
/-- What rides beside the buffers through every item: the core's generator register at some state, and nothing owed. -/
abbrev Rst (c : Dev nD) : sProp 𝕄 := iprop((∃ r, prngReg c r) ∗ ∃ W, owes (c : Thread nD τ) (0 : CellTallies nD τ sig Unit) W)
/-- A host stretch as an item: its operations over the unscoped buffers from the contents `W`, `Rst` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lnone lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the generator register
    at some state. -/
abbrev lastT (c : Dev nD) : sProp 𝕄 := iprop(StableHlo.held (c : Thread nD τ) (Pipeline.ucRefs τ sig) (Bd7 m c) ∗ ∃ r, prngReg c r)

/-! ## The kernel calls as items -/

set_option backward.isDefEq.respectTransparency.types false in
/-- The first kernel call over the thread state: entered with every unscoped buffer at `Bd1`, left with them at
    `Bd2`. Its windows' arrays are split out of the unscoped buffers on entry and put back, at what the write-backs
    leave, on exit; the generator register passes through; nothing is owed; the kernel has no semaphore of its own. -/
def reg0 : Pipeline.RegionSeg (pcfgs (F := F)) tabs (pdat m) () defs₀ vars0 Lnone lvl0 0 where
  win := launch0.win.to₀
  block_pos := launch0.block_pos
  stage_whole := launch0.stage_whole
  K := PEmpty
  osem k := k.elim
  ho := Pipeline.OwnSemFacts.none _
  hbody c := (body_obligation0 (At1 m) c).loose
  hwaits := Pipeline.hwaits_of_owed_zero _ _ _ _ Lnone lvl0 0 fun _ _ => rfl
  pre c := iprop(StableHlo.held (c : Thread nD τ) (Pipeline.ucRefs τ sig) (Bd1 m c) ∗ Rst c)
  post c := iprop(StableHlo.held (c : Thread nD τ) (Pipeline.ucRefs τ sig) (Bd2 m c) ∗ Rst c)
  X c := iprop(∃ r, prngReg c r)
  Y c := iprop(∃ r, prngReg c r)
  Z c := Pipeline.unscopedRest (Ix := Unit) (Name := ℕ) (U := UR sig nD τ) (Lvl := ℕ) spec0 c (At1 m c)
  hentry c := by
    rw [Pipeline.ownSems0_none]
    have hsplit := Pipeline.arrays_of_unscopedBufs (p := 0) (pcfgs (F := F)) tabs (pdat m) launch0.win launch0.arr_whole c
      ((pdat m 0 c).share_full fun _ => rfl) (At1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdat m) ((pdat m 0 c).share_full fun _ => rfl)
      (At1 m c) (Ex2 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel call over the thread state: entered with every unscoped buffer at `Bd3`, left with them at
    `Bd4`. Its windows' arrays are split out of the unscoped buffers on entry and put back, at what the write-backs
    leave, on exit; the generator register passes through; nothing is owed; the kernel has no semaphore of its own. -/
def reg1 : Pipeline.RegionSeg (pcfgs (F := F)) tabs (pdat m) () defs₀ vars0 Lnone lvl0 1 where
  win := launch1.win.to₀
  block_pos := launch1.block_pos
  stage_whole := launch1.stage_whole
  K := PEmpty
  osem k := k.elim
  ho := Pipeline.OwnSemFacts.none _
  hbody c := (body_obligation1 (At3 m) c).loose
  hwaits := Pipeline.hwaits_of_owed_zero _ _ _ _ Lnone lvl0 1 fun _ _ => rfl
  pre c := iprop(StableHlo.held (c : Thread nD τ) (Pipeline.ucRefs τ sig) (Bd3 m c) ∗ Rst c)
  post c := iprop(StableHlo.held (c : Thread nD τ) (Pipeline.ucRefs τ sig) (Bd4 m c) ∗ Rst c)
  X c := iprop(∃ r, prngReg c r)
  Y c := iprop(∃ r, prngReg c r)
  Z c := Pipeline.unscopedRest (Ix := Unit) (Name := ℕ) (U := UR sig nD τ) (Lvl := ℕ) spec1 c (At3 m c)
  hentry c := by
    rw [Pipeline.ownSems0_none]
    have hsplit := Pipeline.arrays_of_unscopedBufs (p := 1) (pcfgs (F := F)) tabs (pdat m) launch1.win launch1.arr_whole c
      ((pdat m 1 c).share_full fun _ => rfl) (At3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdat m) ((pdat m 1 c).share_full fun _ => rfl)
      (At3 m c) (Ex4 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel call over the thread state: entered with every unscoped buffer at `Bd5`, left with them at
    `Bd6`. Its windows' arrays are split out of the unscoped buffers on entry and put back, at what the write-backs
    leave, on exit; the generator register passes through; nothing is owed; the kernel has no semaphore of its own. -/
def reg2 : Pipeline.RegionSeg (pcfgs (F := F)) tabs (pdat m) () defs₀ vars0 Lnone lvl0 2 where
  win := launch2.win.to₀
  block_pos := launch2.block_pos
  stage_whole := launch2.stage_whole
  K := PEmpty
  osem k := k.elim
  ho := Pipeline.OwnSemFacts.none _
  hbody c := (body_obligation2 (At5 m) c).loose
  hwaits := Pipeline.hwaits_of_owed_zero _ _ _ _ Lnone lvl0 2 fun _ _ => rfl
  pre c := iprop(StableHlo.held (c : Thread nD τ) (Pipeline.ucRefs τ sig) (Bd5 m c) ∗ Rst c)
  post c := iprop(StableHlo.held (c : Thread nD τ) (Pipeline.ucRefs τ sig) (Bd6 m c) ∗ Rst c)
  X c := iprop(∃ r, prngReg c r)
  Y c := iprop(∃ r, prngReg c r)
  Z c := Pipeline.unscopedRest (Ix := Unit) (Name := ℕ) (U := UR sig nD τ) (Lvl := ℕ) spec2 c (At5 m c)
  hentry c := by
    rw [Pipeline.ownSems0_none]
    have hsplit := Pipeline.arrays_of_unscopedBufs (p := 2) (pcfgs (F := F)) tabs (pdat m) launch2.win launch2.arr_whole c
      ((pdat m 2 c).share_full fun _ => rfl) (At5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tabs (Ix := Unit) (Name := ℕ) (U := UR sig nD τ) (Lvl := ℕ)
      launch2.win launch2.arr_whole c (pdat m) ((pdat m 2 c).share_full fun _ => rfl)
      (At5 m c) (Ex6 m c) ((pdat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's seven items in order. -/
abbrev items : List (Pipeline.Seg (pcfgs (F := F)) tabs (pdat m) () defs₀ vars0 Lnone lvl0) :=
  [ .host (hostSeg hostOps0 hostOps0_sub hostOps0_fresh (Bd0 m)),
    .region (reg0 m),
    .host (hostSeg hostOps1 hostOps1_sub hostOps1_fresh (Bd2 m)),
    .region (reg1 m),
    .host (hostSeg hostOps2 hostOps2_sub hostOps2_fresh (Bd4 m)),
    .region (reg2 m),
    .host (hostSeg hostOps3 hostOps3_sub hostOps3_fresh (Bd6 m)) ]
/-- @main is the run of its items. -/
theorem main_run (c : Dev nD) : main (F := F) c = Pipeline.Seg.run (items m) := (main_chain c).trans (by chain_rfl)

set_option backward.isDefEq.respectTransparency.types false in
/-- From any memory with zero counters every weakly fair execution of @main terminates, nothing faulting, and every final
    memory holds each unscoped buffer of each core at the return's contents `Bd7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Bd7 m c b) :=
  Pipeline.θ_run_regions_kit (pcfgs (F := F)) tabs (pdat m) () cellOf_inj emb₁ defs₀ vars0 Lnone lvl0 m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rst c)) (Tₙ := lastT m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (Bd7 m c) ∗ Rst c) : sProp 𝕄)
        ⊢ iprop(lastT m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lnone lvl0 fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m c b)
    (hfin := fun c s' => by
      iintro ⟨⟨Hh, -⟩, HSI⟩
      unfold StableHlo.held
      imodintro
      iapply (pointsTo_read_all (Pipeline.ucRefs τ sig) (fun b => (((c : Thread nD τ)).1, b)) (Bd7 m c) s')
      isplitl [Hh] <;> iassumption)
    (hQ := fun s h c => h c)

/-- The frame: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Bd7_main_arg0 m c),
     (h c _ (mem_uc main_arg1 (by decide))).trans (Bd7_main_arg1 m c),
     (h c _ (mem_uc main_arg2 (by decide))).trans (Bd7_main_arg2 m c),
     (h c _ (mem_uc main_arg3 (by decide))).trans (Bd7_main_arg3 m c),
     (h c _ (mem_uc main_arg4 (by decide))).trans (Bd7_main_arg4 m c),
     (h c _ (mem_uc main_arg5 (by decide))).trans (Bd7_main_arg5 m c)⟩)
    (run m ρ)

end Cert.Kernel.Fr

end
-- ==== Proof.KI.Region0.lean ====
/-
  The first matrix product, one grid point at a time.

  The grid is 8 × 6: point (i, j) multiplies rows 512·i … 512·i+511 of the 4096 × 1024 activations by columns
  512·j … 512·j+511 of the 1024 × 3072 stacked weights and stores the 512 × 512 product into block (i, j) of the result.
  Everything here is stated at arbitrary contents `V` of the buffers on entry: what each window's block is at a point,
  what the body leaves in the output block (its one store, of the product of the two loaded blocks), and that the body,
  run on the staging buffers holding those blocks, terminates leaving the inputs as they were and the output block at
  that product. The body also loads the output block before overwriting it; the loaded value is not used.
-/
import proofs.«156318_j51161650430216_1_alg».proof.Proof.Gen.KernelIdeal.Launch
import proofs.«156318_j51161650430216_1_alg».proof.Proof.Gen.KernelIdeal.Skeleton
import proofs.«156318_j51161650430216_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block whether or not the point fetches it (the row block
    changes only every sixth point), for any proof data over `V` whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the point's column block likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_0 : Rect S512x1024 := Rect.unit (s := S512x1024) ![0, 0] S512x1024.size inb_S512x1024_S512x1024_0_0
abbrev r0_1 : Rect S1024x512 := Rect.unit (s := S1024x512) ![0, 0] S1024x512.size inb_S1024x512_S1024x512_0_0
abbrev r0_2 : Rect S512x512 := Rect.unit (s := S512x512) ![0, 0] S512x512.size inb_S512x512_S512x512_0_0

/-- What the body leaves in the output block, from the two input blocks: its one store, of their product. -/
def out0_2 (x0 : Vec F S512x1024 .bf16) (x1 : Vec F S1024x512 .bf16) : Vec F S512x512 .f32 :=
  View.canon [⟨r0_2, k0_pay1 (View.ld x0 r0_0) (View.ld x1 r0_1)⟩]

/-- The one store covers the block. -/
theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The body on whole staging buffers, the inputs' at `x0`, `x1` and the output's at anything, runs to its end with the
    inputs' unchanged and the output's at `out0_2 x0 x1`. -/
theorem sound_kernel0 (c : Dev nD) (E : Set ℕ) (i : grid0.Coords) (arg2 : Memref sig .tc .vmem S512x1024 .bf16) (harg2 : arg2.IsWhole)
    (arg3 : Memref sig .tc .vmem S1024x512 .bf16) (harg3 : arg3.IsWhole) (arg4 : Memref sig .tc .vmem S512x512 .f32) (harg4 : arg4.IsWhole)
    (x0 : Vec F S512x1024 .bf16) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Pipeline 0 on core `c`: the arrays as the region finds them; after the body at point `t` each input's buffer still at
    its block and the output's at `out0_2` of the input blocks; nothing else of the core is touched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  The attention kernel, one grid point at a time.

  The grid is 4 × 32: point (i, g) takes query rows 512·i … 512·i+511 of head-batch g (a 1 × 512 × 64 block), all 2048 keys
  and all 2048 values of g (1 × 2048 × 64 blocks) and rows 512·i … 512·i+511 of the mask (512 × 2048), and stores the
  1 × 512 × 64 attention output into block (g, i) of the result. Everything here is stated at arbitrary contents `V` of the
  buffers on entry: each window's block at a point, what the body leaves in the output block (its one store, of the
  payload of the four loaded blocks), and that the body, run on staging buffers holding those blocks, terminates leaving
  the inputs as they were and the output block at that payload. The body also loads the output block before overwriting
  it; the loaded value is not used. The mask's block changes only every 32nd point.
-/
import proofs.«156318_j51161650430216_1_alg».proof.Proof.Gen.KernelIdeal.Launch
import proofs.«156318_j51161650430216_1_alg».proof.Proof.Gen.KernelIdeal.Skeleton
import proofs.«156318_j51161650430216_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block whether or not the point fetches it, for any proof data over `V`
    whose body leaves that buffer alone: the queries', -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the keys', -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the values', -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- and the mask's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole block -/

abbrev r1_0 : Rect S1x512x64 := Rect.unit (s := S1x512x64) ![0, 0, 0] S1x512x64.size inb_S1x512x64_S1x512x64_0_0_0
abbrev r1_1 : Rect S1x2048x64 := Rect.unit (s := S1x2048x64) ![0, 0, 0] S1x2048x64.size inb_S1x2048x64_S1x2048x64_0_0_0
abbrev r1_3 : Rect S512x2048 := Rect.unit (s := S512x2048) ![0, 0] S512x2048.size inb_S512x2048_S512x2048_0_0

/-- What the body leaves in the output block, from the four input blocks: its one store. -/
def out1_4 (x0 : Vec F S1x512x64 .bf16) (x1 x2 : Vec F S1x2048x64 .bf16) (x3 : Vec F S512x2048 .f32) : Vec F S1x512x64 .f32 :=
  View.canon [⟨r1_0, k1_pay1 (View.ld x0 r1_0) (View.ld x1 r1_1) (View.ld x2 r1_1) (View.ld x3 r1_3)⟩]

/-- The one store covers the block. -/
theorem cover1_4 (p0 : Vec F S1x512x64 .f32) (y : S1x512x64.Idx) :
    ∃ pc ∈ ([⟨r1_0, p0⟩] : List (View.Piece (Elt F) S1x512x64 .f32)), y ∈ pc.1.set :=
  View.cover_of_tiled [⟨r1_0, p0⟩] S1x512x64.size (by rfl) y

/-! ## The body's triple -/

set_option maxHeartbeats 1000000 in
/-- The body on whole staging buffers, the inputs' at `x0 … x3` and the output's at anything, runs to its end with the
    inputs' unchanged and the output's at `out1_4 x0 x1 x2 x3`. -/
theorem sound_kernel1 (c : Dev nD) (E : Set ℕ) (i : grid1.Coords) (arg2 : Memref sig .tc .vmem S1x512x64 .bf16) (harg2 : arg2.IsWhole)
    (arg3 : Memref sig .tc .vmem S1x2048x64 .bf16) (harg3 : arg3.IsWhole) (arg4 : Memref sig .tc .vmem S1x2048x64 .bf16) (harg4 : arg4.IsWhole)
    (arg5 : Memref sig .tc .vmem S512x2048 .f32) (harg5 : arg5.IsWhole) (arg6 : Memref sig .tc .vmem S1x512x64 .f32) (harg6 : arg6.IsWhole)
    (x0 : Vec F S1x512x64 .bf16) (x1 x2 : Vec F S1x2048x64 .bf16) (x3 : Vec F S512x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the pipeline -/

/-- Pipeline 1 on core `c`: the arrays as the region finds them; after the body at point `t` each input's buffer still at
    its block and the output's at `out1_4` of the input blocks; nothing else of the core is touched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  The last matrix product, one grid point at a time.

  The grid is 8 × 2: point (i, j) multiplies rows 512·i … 512·i+511 of the 4096 × 1024 merged attention outputs by columns
  512·j … 512·j+511 of the 1024 × 1024 transposed output weights and stores the 512 × 512 product into block (i, j) of the result.
  Everything here is stated at arbitrary contents `V` of the buffers on entry: what each window's block is at a point,
  what the body leaves in the output block (its one store, of the product of the two loaded blocks), and that the body,
  run on the staging buffers holding those blocks, terminates leaving the inputs as they were and the output block at
  that product. The body also loads the output block before overwriting it; the loaded value is not used.
-/
import proofs.«156318_j51161650430216_1_alg».proof.Proof.Gen.KernelIdeal.Launch
import proofs.«156318_j51161650430216_1_alg».proof.Proof.Gen.KernelIdeal.Skeleton
import proofs.«156318_j51161650430216_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The merged outputs' staging buffer holds the point's row block whether or not the point fetches it (the row block
    changes only every second point), for any proof data over `V` whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the point's column block likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole block -/

abbrev r2_0 : Rect S512x1024 := Rect.unit (s := S512x1024) ![0, 0] S512x1024.size inb_S512x1024_S512x1024_0_0
abbrev r2_1 : Rect S1024x512 := Rect.unit (s := S1024x512) ![0, 0] S1024x512.size inb_S1024x512_S1024x512_0_0
abbrev r2_2 : Rect S512x512 := Rect.unit (s := S512x512) ![0, 0] S512x512.size inb_S512x512_S512x512_0_0

/-- What the body leaves in the output block, from the two input blocks: its one store, of their product. -/
def out2_2 (x0 : Vec F S512x1024 .bf16) (x1 : Vec F S1024x512 .bf16) : Vec F S512x512 .f32 :=
  View.canon [⟨r2_2, k2_pay1 (View.ld x0 r2_0) (View.ld x1 r2_1)⟩]

/-- The one store covers the block. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's triple -/

set_option maxHeartbeats 1000000 in
/-- The body on whole staging buffers, the inputs' at `x0`, `x1` and the output's at anything, runs to its end with the
    inputs' unchanged and the output's at `out2_2 x0 x1`. -/
theorem sound_kernel2 (c : Dev nD) (E : Set ℕ) (i : grid2.Coords) (arg2 : Memref sig .tc .vmem S512x1024 .bf16) (harg2 : arg2.IsWhole)
    (arg3 : Memref sig .tc .vmem S1024x512 .bf16) (harg3 : arg3.IsWhole) (arg4 : Memref sig .tc .vmem S512x512 .f32) (harg4 : arg4.IsWhole)
    (x0 : Vec F S512x1024 .bf16) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- Pipeline 2 on core `c`: the arrays as the region finds them; after the body at point `t` each input's buffer still at
    its block and the output's at `out2_2` of the input blocks; nothing else of the core is touched; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The whole program's run, from the launch to the return.

  @main is seven items: a stretch of host operations, the first kernel call, a stretch, the second call, a stretch, the
  third call, a last stretch. The contents of the core's buffers at the eight boundaries are a fold from the launch
  memory: a host stretch applies its operations; a kernel call leaves each of its windows' arrays at what the pipeline's
  write-backs fold to (an input array as entered) and every other buffer as entered. Each kernel call is run from the
  contents at its entry by its body obligation; the program's run ends with every unscoped buffer at the last boundary's
  contents, from which the frame (each argument as launched) and the result's value are read.
-/
import proofs.«156318_j51161650430216_1_alg».proof.Proof.KI.Region0
import proofs.«156318_j51161650430216_1_alg».proof.Proof.KI.Region1
import proofs.«156318_j51161650430216_1_alg».proof.Proof.KI.Region2
import proofs.«156318_j51161650430216_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Bd0 : Dev nD → Valuation τ sig (Elt F) := fun c b => m (c, b)
/-- After the first host stretch: what the first kernel call is entered with. -/
abbrev Bd1 : Dev nD → Valuation τ sig (Elt F) := fun c => StableHlo.after hostOps0 (Bd0 m c)
/-- The same read at the core's references. -/
abbrev At1 : (c : Dev nD) → (b : Ref sig .tc) → Buf (Elt F) ((c : Thread nD τ).loc b) := fun c b => Bd1 m c b

/-- On leaving the first kernel call: its windows' arrays at what the pipeline leaves (an input as entered, the output at its
    write-backs folded), every other buffer as entered. -/
def Bd2 (c : Dev nD) : Valuation τ sig (Elt F) :=
  Pipeline.withArrays spec0 c (Bd1 m c) fun w => (dat0 (At1 m) c).arrAt w cfg0.N
theorem Bd2_arr (c : Dev nD) (w : Fin cfg0.W) :
    Bd2 m c (Proc.devRef .tc (Pipeline.arrRef spec0 w)) = (dat0 (At1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
/-- The same read at the core's references. -/
abbrev Ex2 : (c : Dev nD) → (b : Ref sig .tc) → Buf (Elt F) ((c : Thread nD τ).loc b) := fun c b => Bd2 m c b
theorem hF0 (c : Dev nD) (w : Fin cfg0.W) : (dat0 (At1 m) c).arrAt w cfg0.N = Ex2 m c (Pipeline.arrRef spec0 w) :=
  (Bd2_arr m c w).symm
theorem hrest0 (c : Dev nD) : ∀ b, b ∉ Finset.univ.image (Pipeline.arrRef spec0) → Ex2 m c b = At1 m c b :=
  fun b hb => Bd2_of_ne m c b fun w e => hb (Finset.mem_image.mpr ⟨w, Finset.mem_univ _, e⟩)

/-- After the second host stretch: what the second kernel call is entered with. -/
abbrev Bd3 : Dev nD → Valuation τ sig (Elt F) := fun c => StableHlo.after hostOps1 (Bd2 m c)
abbrev At3 : (c : Dev nD) → (b : Ref sig .tc) → Buf (Elt F) ((c : Thread nD τ).loc b) := fun c b => Bd3 m c b

/-- On leaving the second kernel call: its windows' arrays at what the pipeline leaves (an input as entered, the output at its
    write-backs folded), every other buffer as entered. -/
def Bd4 (c : Dev nD) : Valuation τ sig (Elt F) :=
  Pipeline.withArrays spec1 c (Bd3 m c) fun w => (dat1 (At3 m) c).arrAt w cfg1.N
theorem Bd4_arr (c : Dev nD) (w : Fin cfg1.W) :
    Bd4 m c (Proc.devRef .tc (Pipeline.arrRef spec1 w)) = (dat1 (At3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
/-- The same read at the core's references. -/
abbrev Ex4 : (c : Dev nD) → (b : Ref sig .tc) → Buf (Elt F) ((c : Thread nD τ).loc b) := fun c b => Bd4 m c b
theorem hF1 (c : Dev nD) (w : Fin cfg1.W) : (dat1 (At3 m) c).arrAt w cfg1.N = Ex4 m c (Pipeline.arrRef spec1 w) :=
  (Bd4_arr m c w).symm
theorem hrest1 (c : Dev nD) : ∀ b, b ∉ Finset.univ.image (Pipeline.arrRef spec1) → Ex4 m c b = At3 m c b :=
  fun b hb => Bd4_of_ne m c b fun w e => hb (Finset.mem_image.mpr ⟨w, Finset.mem_univ _, e⟩)

/-- After the third host stretch: what the third kernel call is entered with. -/
abbrev Bd5 : Dev nD → Valuation τ sig (Elt F) := fun c => StableHlo.after hostOps2 (Bd4 m c)
abbrev At5 : (c : Dev nD) → (b : Ref sig .tc) → Buf (Elt F) ((c : Thread nD τ).loc b) := fun c b => Bd5 m c b

/-- On leaving the third kernel call: its windows' arrays at what the pipeline leaves (an input as entered, the output at its
    write-backs folded), every other buffer as entered. -/
def Bd6 (c : Dev nD) : Valuation τ sig (Elt F) :=
  Pipeline.withArrays spec2 c (Bd5 m c) fun w => (dat2 (At5 m) c).arrAt w cfg2.N
theorem Bd6_arr (c : Dev nD) (w : Fin cfg2.W) :
    Bd6 m c (Proc.devRef .tc (Pipeline.arrRef spec2 w)) = (dat2 (At5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
/-- The same read at the core's references. -/
abbrev Ex6 : (c : Dev nD) → (b : Ref sig .tc) → Buf (Elt F) ((c : Thread nD τ).loc b) := fun c b => Bd6 m c b
theorem hF2 (c : Dev nD) (w : Fin cfg2.W) : (dat2 (At5 m) c).arrAt w cfg2.N = Ex6 m c (Pipeline.arrRef spec2 w) :=
  (Bd6_arr m c w).symm
theorem hrest2 (c : Dev nD) : ∀ b, b ∉ Finset.univ.image (Pipeline.arrRef spec2) → Ex6 m c b = At5 m c b :=
  fun b hb => Bd6_of_ne m c b fun w e => hb (Finset.mem_image.mpr ⟨w, Finset.mem_univ _, e⟩)

/-- After the last host stretch: at the return. -/
abbrev Bd7 : Dev nD → Valuation τ sig (Elt F) := fun c => StableHlo.after hostOps3 (Bd6 m c)

/-! ## The arguments end as launched -/

/-- `main_arg0` reaches the end as launched: no host operation writes it and no kernel call's output array is it. -/
theorem Bd7_main_arg0 (c : Dev nD) : Bd7 m c (Proc.devRef .tc main_arg0) = m ((c : Thread nD τ).loc main_arg0) :=
  calc Bd7 m c (Proc.devRef .tc main_arg0)
    _ = Bd6 m c (Proc.devRef .tc main_arg0) := StableHlo.after_of_writes_sub hostOps3 _ hostOps3_writes (r := main_arg0) (by decide)
    _ = Bd5 m c (Proc.devRef .tc main_arg0) := Bd6_of_ne m c main_arg0 (by decide)
    _ = Bd4 m c (Proc.devRef .tc main_arg0) := StableHlo.after_of_writes_sub hostOps2 _ hostOps2_writes (r := main_arg0) (by decide)
    _ = Bd3 m c (Proc.devRef .tc main_arg0) := Bd4_of_ne m c main_arg0 (by decide)
    _ = Bd2 m c (Proc.devRef .tc main_arg0) := StableHlo.after_of_writes_sub hostOps1 _ hostOps1_writes (r := main_arg0) (by decide)
    _ = Bd1 m c (Proc.devRef .tc main_arg0) := Bd2_of_ne m c main_arg0 (by decide)
    _ = Bd0 m c (Proc.devRef .tc main_arg0) := StableHlo.after_of_writes_sub hostOps0 _ hostOps0_writes (r := main_arg0) (by decide)
    _ = m ((c : Thread nD τ).loc main_arg0) := rfl

/-- `main_arg1` reaches the end as launched: no host operation writes it and no kernel call's output array is it. -/
theorem Bd7_main_arg1 (c : Dev nD) : Bd7 m c (Proc.devRef .tc main_arg1) = m ((c : Thread nD τ).loc main_arg1) :=
  calc Bd7 m c (Proc.devRef .tc main_arg1)
    _ = Bd6 m c (Proc.devRef .tc main_arg1) := StableHlo.after_of_writes_sub hostOps3 _ hostOps3_writes (r := main_arg1) (by decide)
    _ = Bd5 m c (Proc.devRef .tc main_arg1) := Bd6_of_ne m c main_arg1 (by decide)
    _ = Bd4 m c (Proc.devRef .tc main_arg1) := StableHlo.after_of_writes_sub hostOps2 _ hostOps2_writes (r := main_arg1) (by decide)
    _ = Bd3 m c (Proc.devRef .tc main_arg1) := (Bd4_arr m c 3).trans (((dat1 (At3 m) c).arrAt_in 3 rfl _).trans (A_eq1 (At3 m) c 3))
    _ = Bd2 m c (Proc.devRef .tc main_arg1) := StableHlo.after_of_writes_sub hostOps1 _ hostOps1_writes (r := main_arg1) (by decide)
    _ = Bd1 m c (Proc.devRef .tc main_arg1) := Bd2_of_ne m c main_arg1 (by decide)
    _ = Bd0 m c (Proc.devRef .tc main_arg1) := StableHlo.after_of_writes_sub hostOps0 _ hostOps0_writes (r := main_arg1) (by decide)
    _ = m ((c : Thread nD τ).loc main_arg1) := rfl

/-- `main_arg2` reaches the end as launched: no host operation writes it and no kernel call's output array is it. -/
theorem Bd7_main_arg2 (c : Dev nD) : Bd7 m c (Proc.devRef .tc main_arg2) = m ((c : Thread nD τ).loc main_arg2) :=
  calc Bd7 m c (Proc.devRef .tc main_arg2)
    _ = Bd6 m c (Proc.devRef .tc main_arg2) := StableHlo.after_of_writes_sub hostOps3 _ hostOps3_writes (r := main_arg2) (by decide)
    _ = Bd5 m c (Proc.devRef .tc main_arg2) := Bd6_of_ne m c main_arg2 (by decide)
    _ = Bd4 m c (Proc.devRef .tc main_arg2) := StableHlo.after_of_writes_sub hostOps2 _ hostOps2_writes (r := main_arg2) (by decide)
    _ = Bd3 m c (Proc.devRef .tc main_arg2) := Bd4_of_ne m c main_arg2 (by decide)
    _ = Bd2 m c (Proc.devRef .tc main_arg2) := StableHlo.after_of_writes_sub hostOps1 _ hostOps1_writes (r := main_arg2) (by decide)
    _ = Bd1 m c (Proc.devRef .tc main_arg2) := Bd2_of_ne m c main_arg2 (by decide)
    _ = Bd0 m c (Proc.devRef .tc main_arg2) := StableHlo.after_of_writes_sub hostOps0 _ hostOps0_writes (r := main_arg2) (by decide)
    _ = m ((c : Thread nD τ).loc main_arg2) := rfl

/-- `main_arg3` reaches the end as launched: no host operation writes it and no kernel call's output array is it. -/
theorem Bd7_main_arg3 (c : Dev nD) : Bd7 m c (Proc.devRef .tc main_arg3) = m ((c : Thread nD τ).loc main_arg3) :=
  calc Bd7 m c (Proc.devRef .tc main_arg3)
    _ = Bd6 m c (Proc.devRef .tc main_arg3) := StableHlo.after_of_writes_sub hostOps3 _ hostOps3_writes (r := main_arg3) (by decide)
    _ = Bd5 m c (Proc.devRef .tc main_arg3) := Bd6_of_ne m c main_arg3 (by decide)
    _ = Bd4 m c (Proc.devRef .tc main_arg3) := StableHlo.after_of_writes_sub hostOps2 _ hostOps2_writes (r := main_arg3) (by decide)
    _ = Bd3 m c (Proc.devRef .tc main_arg3) := Bd4_of_ne m c main_arg3 (by decide)
    _ = Bd2 m c (Proc.devRef .tc main_arg3) := StableHlo.after_of_writes_sub hostOps1 _ hostOps1_writes (r := main_arg3) (by decide)
    _ = Bd1 m c (Proc.devRef .tc main_arg3) := Bd2_of_ne m c main_arg3 (by decide)
    _ = Bd0 m c (Proc.devRef .tc main_arg3) := StableHlo.after_of_writes_sub hostOps0 _ hostOps0_writes (r := main_arg3) (by decide)
    _ = m ((c : Thread nD τ).loc main_arg3) := rfl

/-- `main_arg4` reaches the end as launched: no host operation writes it and no kernel call's output array is it. -/
theorem Bd7_main_arg4 (c : Dev nD) : Bd7 m c (Proc.devRef .tc main_arg4) = m ((c : Thread nD τ).loc main_arg4) :=
  calc Bd7 m c (Proc.devRef .tc main_arg4)
    _ = Bd6 m c (Proc.devRef .tc main_arg4) := StableHlo.after_of_writes_sub hostOps3 _ hostOps3_writes (r := main_arg4) (by decide)
    _ = Bd5 m c (Proc.devRef .tc main_arg4) := Bd6_of_ne m c main_arg4 (by decide)
    _ = Bd4 m c (Proc.devRef .tc main_arg4) := StableHlo.after_of_writes_sub hostOps2 _ hostOps2_writes (r := main_arg4) (by decide)
    _ = Bd3 m c (Proc.devRef .tc main_arg4) := Bd4_of_ne m c main_arg4 (by decide)
    _ = Bd2 m c (Proc.devRef .tc main_arg4) := StableHlo.after_of_writes_sub hostOps1 _ hostOps1_writes (r := main_arg4) (by decide)
    _ = Bd1 m c (Proc.devRef .tc main_arg4) := Bd2_of_ne m c main_arg4 (by decide)
    _ = Bd0 m c (Proc.devRef .tc main_arg4) := StableHlo.after_of_writes_sub hostOps0 _ hostOps0_writes (r := main_arg4) (by decide)
    _ = m ((c : Thread nD τ).loc main_arg4) := rfl

/-- `main_arg5` reaches the end as launched: no host operation writes it and no kernel call's output array is it. -/
theorem Bd7_main_arg5 (c : Dev nD) : Bd7 m c (Proc.devRef .tc main_arg5) = m ((c : Thread nD τ).loc main_arg5) :=
  calc Bd7 m c (Proc.devRef .tc main_arg5)
    _ = Bd6 m c (Proc.devRef .tc main_arg5) := StableHlo.after_of_writes_sub hostOps3 _ hostOps3_writes (r := main_arg5) (by decide)
    _ = Bd5 m c (Proc.devRef .tc main_arg5) := Bd6_of_ne m c main_arg5 (by decide)
    _ = Bd4 m c (Proc.devRef .tc main_arg5) := StableHlo.after_of_writes_sub hostOps2 _ hostOps2_writes (r := main_arg5) (by decide)
    _ = Bd3 m c (Proc.devRef .tc main_arg5) := Bd4_of_ne m c main_arg5 (by decide)
    _ = Bd2 m c (Proc.devRef .tc main_arg5) := StableHlo.after_of_writes_sub hostOps1 _ hostOps1_writes (r := main_arg5) (by decide)
    _ = Bd1 m c (Proc.devRef .tc main_arg5) := Bd2_of_ne m c main_arg5 (by decide)
    _ = Bd0 m c (Proc.devRef .tc main_arg5) := StableHlo.after_of_writes_sub hostOps0 _ hostOps0_writes (r := main_arg5) (by decide)
    _ = m ((c : Thread nD τ).loc main_arg5) := rfl

/-! ## The proof data family and the thread state -/

/-- No kernel call has a prefetched table. -/
abbrev tabs : (p : Fin 3) → (pcfgs (F := F) p).Adm := fun p => (cfgs p).toPCfg_adm
/-- Each pipeline's proof data at its call's entry contents. -/
def pdat : (p : Fin 3) → (c : Dev nD) → Dat τ (Elt F) Unit ℕ (UR sig nD τ) ℕ (Pipeline.pin (pcfgs (F := F)) tabs p) c
  | ⟨0, _⟩ => fun c => dat0 (At1 m) c
  | ⟨1, _⟩ => fun c => dat1 (At3 m) c
  | ⟨2, _⟩ => fun c => dat2 (At5 m) c
abbrev vars0 : Variants := Variants.none
/-- No core waits on another: no level is assigned. -/
abbrev Lnone : GSem nD τ sig → Finset Unit := fun _ => ∅
abbrev lvl0 : GSem nD τ sig → Unit → ℕ := fun _ _ => 0
/-- What rides beside the buffers through every item: the core's generator register at some state, and nothing owed. -/
abbrev Rst (c : Dev nD) : sProp 𝕄 := iprop((∃ r, prngReg c r) ∗ ∃ W, owes (c : Thread nD τ) (0 : CellTallies nD τ sig Unit) W)
/-- A host stretch as an item: its operations over the unscoped buffers from the contents `W`, `Rst` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lnone lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the generator register
    at some state. -/
abbrev lastT (c : Dev nD) : sProp 𝕄 := iprop(StableHlo.held (c : Thread nD τ) (Pipeline.ucRefs τ sig) (Bd7 m c) ∗ ∃ r, prngReg c r)

/-! ## The kernel calls as items -/

set_option backward.isDefEq.respectTransparency.types false in
/-- The first kernel call over the thread state: entered with every unscoped buffer at `Bd1`, left with them at
    `Bd2`. Its windows' arrays are split out of the unscoped buffers on entry and put back, at what the write-backs
    leave, on exit; the generator register passes through; nothing is owed; the kernel has no semaphore of its own. -/
def reg0 : Pipeline.RegionSeg (pcfgs (F := F)) tabs (pdat m) () defs₀ vars0 Lnone lvl0 0 where
  win := launch0.win.to₀
  block_pos := launch0.block_pos
  stage_whole := launch0.stage_whole
  K := PEmpty
  osem k := k.elim
  ho := Pipeline.OwnSemFacts.none _
  hbody c := (body_obligation0 (At1 m) c).loose
  hwaits := Pipeline.hwaits_of_owed_zero _ _ _ _ Lnone lvl0 0 fun _ _ => rfl
  pre c := iprop(StableHlo.held (c : Thread nD τ) (Pipeline.ucRefs τ sig) (Bd1 m c) ∗ Rst c)
  post c := iprop(StableHlo.held (c : Thread nD τ) (Pipeline.ucRefs τ sig) (Bd2 m c) ∗ Rst c)
  X c := iprop(∃ r, prngReg c r)
  Y c := iprop(∃ r, prngReg c r)
  Z c := Pipeline.unscopedRest (Ix := Unit) (Name := ℕ) (U := UR sig nD τ) (Lvl := ℕ) spec0 c (At1 m c)
  hentry c := by
    rw [Pipeline.ownSems0_none]
    have hsplit := Pipeline.arrays_of_unscopedBufs (p := 0) (pcfgs (F := F)) tabs (pdat m) launch0.win launch0.arr_whole c
      ((pdat m 0 c).share_full fun _ => rfl) (At1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdat m) ((pdat m 0 c).share_full fun _ => rfl)
      (At1 m c) (Ex2 m c) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel call over the thread state: entered with every unscoped buffer at `Bd3`, left with them at
    `Bd4`. Its windows' arrays are split out of the unscoped buffers on entry and put back, at what the write-backs
    leave, on exit; the generator register passes through; nothing is owed; the kernel has no semaphore of its own. -/
def reg1 : Pipeline.RegionSeg (pcfgs (F := F)) tabs (pdat m) () defs₀ vars0 Lnone lvl0 1 where
  win := launch1.win.to₀
  block_pos := launch1.block_pos
  stage_whole := launch1.stage_whole
  K := PEmpty
  osem k := k.elim
  ho := Pipeline.OwnSemFacts.none _
  hbody c := (body_obligation1 (At3 m) c).loose
  hwaits := Pipeline.hwaits_of_owed_zero _ _ _ _ Lnone lvl0 1 fun _ _ => rfl
  pre c := iprop(StableHlo.held (c : Thread nD τ) (Pipeline.ucRefs τ sig) (Bd3 m c) ∗ Rst c)
  post c := iprop(StableHlo.held (c : Thread nD τ) (Pipeline.ucRefs τ sig) (Bd4 m c) ∗ Rst c)
  X c := iprop(∃ r, prngReg c r)
  Y c := iprop(∃ r, prngReg c r)
  Z c := Pipeline.unscopedRest (Ix := Unit) (Name := ℕ) (U := UR sig nD τ) (Lvl := ℕ) spec1 c (At3 m c)
  hentry c := by
    rw [Pipeline.ownSems0_none]
    have hsplit := Pipeline.arrays_of_unscopedBufs (p := 1) (pcfgs (F := F)) tabs (pdat m) launch1.win launch1.arr_whole c
      ((pdat m 1 c).share_full fun _ => rfl) (At3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdat m) ((pdat m 1 c).share_full fun _ => rfl)
      (At3 m c) (Ex4 m c) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel call over the thread state: entered with every unscoped buffer at `Bd5`, left with them at
    `Bd6`. Its windows' arrays are split out of the unscoped buffers on entry and put back, at what the write-backs
    leave, on exit; the generator register passes through; nothing is owed; the kernel has no semaphore of its own. -/
def reg2 : Pipeline.RegionSeg (pcfgs (F := F)) tabs (pdat m) () defs₀ vars0 Lnone lvl0 2 where
  win := launch2.win.to₀
  block_pos := launch2.block_pos
  stage_whole := launch2.stage_whole
  K := PEmpty
  osem k := k.elim
  ho := Pipeline.OwnSemFacts.none _
  hbody c := (body_obligation2 (At5 m) c).loose
  hwaits := Pipeline.hwaits_of_owed_zero _ _ _ _ Lnone lvl0 2 fun _ _ => rfl
  pre c := iprop(StableHlo.held (c : Thread nD τ) (Pipeline.ucRefs τ sig) (Bd5 m c) ∗ Rst c)
  post c := iprop(StableHlo.held (c : Thread nD τ) (Pipeline.ucRefs τ sig) (Bd6 m c) ∗ Rst c)
  X c := iprop(∃ r, prngReg c r)
  Y c := iprop(∃ r, prngReg c r)
  Z c := Pipeline.unscopedRest (Ix := Unit) (Name := ℕ) (U := UR sig nD τ) (Lvl := ℕ) spec2 c (At5 m c)
  hentry c := by
    rw [Pipeline.ownSems0_none]
    have hsplit := Pipeline.arrays_of_unscopedBufs (p := 2) (pcfgs (F := F)) tabs (pdat m) launch2.win launch2.arr_whole c
      ((pdat m 2 c).share_full fun _ => rfl) (At5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tabs (Ix := Unit) (Name := ℕ) (U := UR sig nD τ) (Lvl := ℕ)
      launch2.win launch2.arr_whole c (pdat m) ((pdat m 2 c).share_full fun _ => rfl)
      (At5 m c) (Ex6 m c) ((pdat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's seven items in order. -/
abbrev items : List (Pipeline.Seg (pcfgs (F := F)) tabs (pdat m) () defs₀ vars0 Lnone lvl0) :=
  [ .host (hostSeg hostOps0 hostOps0_sub hostOps0_fresh (Bd0 m)),
    .region (reg0 m),
    .host (hostSeg hostOps1 hostOps1_sub hostOps1_fresh (Bd2 m)),
    .region (reg1 m),
    .host (hostSeg hostOps2 hostOps2_sub hostOps2_fresh (Bd4 m)),
    .region (reg2 m),
    .host (hostSeg hostOps3 hostOps3_sub hostOps3_fresh (Bd6 m)) ]
/-- @main is the run of its items. -/
theorem main_run (c : Dev nD) : main (F := F) c = Pipeline.Seg.run (items m) := (main_chain c).trans (by chain_rfl)

set_option backward.isDefEq.respectTransparency.types false in
/-- From any memory with zero counters every weakly fair execution of @main terminates, nothing faulting, and every final
    memory holds each unscoped buffer of each core at the return's contents `Bd7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Bd7 m c b) :=
  Pipeline.θ_run_regions_kit (pcfgs (F := F)) tabs (pdat m) () cellOf_inj emb₁ defs₀ vars0 Lnone lvl0 m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rst c)) (Tₙ := lastT m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (Bd7 m c) ∗ Rst c) : sProp 𝕄)
        ⊢ iprop(lastT m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lnone lvl0 fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m c b)
    (hfin := fun c s' => by
      iintro ⟨⟨Hh, -⟩, HSI⟩
      unfold StableHlo.held
      imodintro
      iapply (pointsTo_read_all (Pipeline.ucRefs τ sig) (fun b => (((c : Thread nD τ)).1, b)) (Bd7 m c) s')
      isplitl [Hh] <;> iassumption)
    (hQ := fun s h c => h c)

/-- The frame: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Bd7_main_arg0 m c),
     (h c _ (mem_uc main_arg1 (by decide))).trans (Bd7_main_arg1 m c),
     (h c _ (mem_uc main_arg2 (by decide))).trans (Bd7_main_arg2 m c),
     (h c _ (mem_uc main_arg3 (by decide))).trans (Bd7_main_arg3 m c),
     (h c _ (mem_uc main_arg4 (by decide))).trans (Bd7_main_arg4 m c),
     (h c _ (mem_uc main_arg5 (by decide))).trans (Bd7_main_arg5 m c)⟩)
    (run m ρ)

end Cert.KernelIdeal.Fr

end
-- ==== Proof.LibNary3.lean ====
/-
  A host operation with three operands, read at its result.

  The library reads an operation over a family of operand references `xs : Fin n → Ref` as its function applied to
  `fun k => F (xs k)`: the operands' contents under a binder. For a literal family of three references this file
  restates that result with each operand's contents at its own reference, so that a composed term can go on being
  rewritten operand by operand; the two forms agree at each of the three positions by computation.
-/
import Idealize.ShloMosaic.Lib.StableHlo.Run

noncomputable section

namespace Cert.Lib

open Idealize.ShloMosaic

variable {τ : Topo} {sig : RefSig} {Val : EltTy → Type} {x a b y : Ref sig .tc}

/-- The result of an operation over the literal family `![x, a, b]` of three operand references, at its result
    reference: its function at the three operands' contents, each read at its own reference. -/
theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end Cert.Lib

end
-- ==== Proof.KI.Host.lean ====
/-
  The host operations between the kernels, read at one index, at the exact instance.

  Every one of them is a re-arrangement (a change of float format is the identity at the exact instance):
  before the first kernel the activations [2, 2048, 1024] are flattened to rows 2048·b + s, and the three transposed weight
  matrices are laid side by side, so that column e, 1024 + e, 2048 + e of the stacked matrix is row e of Wq, Wk, Wv;
  between the first and the second kernel the three column thirds of the product are each split into 16 heads of 64 and
  the head axis is moved in front of the sequence axis: head-batch g = 16·b + h, row s, entry d reads row 2048·b + s,
  column 64·h + d of its third; between the second and the third kernel the heads are laid side by side again, and Wo is
  transposed; after the third kernel the rows are unflattened.
  All statements are over arbitrary contents `W` of the buffers before the stretch.
-/
import proofs.«156318_j51161650430216_1_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run
import proofs.«156318_j51161650430216_1_alg».proof.Proof.LibNary3

noncomputable section

namespace Cert.KernelIdeal.Val

open Cert.KernelIdeal Cert.KernelIdeal.Gen Idealize.ShloMosaic Idealize.ShloMosaic.TcCoe Idealize.ShloMosaic.ValueIdx Idealize.SL.Sem

variable (W : Valuation τ sig (Elt Ideal))

/-! ## Before the first kernel -/

/-- The flattened activations: row i is (i / 2048, i % 2048). -/
theorem host0_v1 (i : Fin 4096) (k : Fin 1024) :
    (StableHlo.after (hostOps0 (F := Ideal)) W (Proc.devRef .tc main_v1) : S4096x1024.Idx → EReal) (ix2 i k)
      = (W (Proc.devRef .tc main_arg0) : S2x2048x1024.Idx → EReal)
          (ix3 (⟨i.val / 2048, by have := i.isLt; omega⟩ : Fin 2) (⟨i.val % 2048, Nat.mod_lt _ (by decide)⟩ : Fin 2048) k) := by
  have h : (StableHlo.after (hostOps0 (F := Ideal)) W (Proc.devRef .tc main_v1) : S4096x1024.Idx → EReal)
      = shapeCast S4096x1024 (W (Proc.devRef .tc main_arg0) : S2x2048x1024.Idx → EReal) shapeCasts_S2x2048x1024_S4096x1024 := by
    after_results
    rfl
  rw [h]
  have hi := i.isLt
  exact shapeCast_apply (s := S2x2048x1024) (W (Proc.devRef .tc main_arg0)) shapeCasts_S2x2048x1024_S4096x1024 _ _
    (by show (S2x2048x1024.rowMajor _).val = (S4096x1024.rowMajor _).val
        rewrite [Shape.rowMajor_val_three, Shape.rowMajor_val_two]
        show (i.val / 2048 * 2048 + i.val % 2048) * 1024 + k.val = i.val * 1024 + k.val
        omega)

/-- A transposed square matrix reads (k, e) at (e, k). -/
theorem transpose2_read (X : S1024x1024.Idx → EReal) (k e : Fin 1024) :
    transpose S1024x1024 [1, 0] X transposes_S1024x1024_S1024x1024_1_0 (ix2 k e) = X (ix2 e k) :=
  transpose_apply [1, 0] X transposes_S1024x1024_S1024x1024_1_0 _ _ (fun b => match b with
    | ⟨0, _⟩ => rfl
    | ⟨1, _⟩ => rfl)

/-- Three square matrices laid side by side: the first 1024 columns read the first piece, -/
theorem concat3_read0 (A B C : S1024x1024.Idx → EReal) (k e : Fin 1024) (c : Fin 3072) (hc : 0 + e.val = c.val) :
    concatenate S1024x3072 1 [⟨S1024x1024, A⟩, ⟨S1024x1024, B⟩, ⟨S1024x1024, C⟩]
        concatenates_S1024x1024_S1024x1024_S1024x1024_S1024x3072_d1 (ix2 k c)
      = A (ix2 k e) :=
  concatenate_apply_piece (t := S1024x3072) (1 : Fin 2) [⟨S1024x1024, A⟩, ⟨S1024x1024, B⟩, ⟨S1024x1024, C⟩]
    concatenates_S1024x1024_S1024x1024_S1024x1024_S1024x3072_d1 (ix2 k c) 0 (show 0 < 3 by decide) S1024x1024 A rfl rfl 0 rfl (ix2 k e)
    (fun b hb => match b with
      | ⟨0, _⟩ => rfl
      | ⟨1, _⟩ => absurd rfl hb) hc
/-- the next 1024 the second, -/
theorem concat3_read1 (A B C : S1024x1024.Idx → EReal) (k e : Fin 1024) (c : Fin 3072) (hc : 1024 + e.val = c.val) :
    concatenate S1024x3072 1 [⟨S1024x1024, A⟩, ⟨S1024x1024, B⟩, ⟨S1024x1024, C⟩]
        concatenates_S1024x1024_S1024x1024_S1024x1024_S1024x3072_d1 (ix2 k c)
      = B (ix2 k e) :=
  concatenate_apply_piece (t := S1024x3072) (1 : Fin 2) [⟨S1024x1024, A⟩, ⟨S1024x1024, B⟩, ⟨S1024x1024, C⟩]
    concatenates_S1024x1024_S1024x1024_S1024x1024_S1024x3072_d1 (ix2 k c) 1 (show 1 < 3 by decide) S1024x1024 B rfl rfl 1024 rfl (ix2 k e)
    (fun b hb => match b with
      | ⟨0, _⟩ => rfl
      | ⟨1, _⟩ => absurd rfl hb) hc
/-- the last 1024 the third. -/
theorem concat3_read2 (A B C : S1024x1024.Idx → EReal) (k e : Fin 1024) (c : Fin 3072) (hc : 2048 + e.val = c.val) :
    concatenate S1024x3072 1 [⟨S1024x1024, A⟩, ⟨S1024x1024, B⟩, ⟨S1024x1024, C⟩]
        concatenates_S1024x1024_S1024x1024_S1024x1024_S1024x3072_d1 (ix2 k c)
      = C (ix2 k e) :=
  concatenate_apply_piece (t := S1024x3072) (1 : Fin 2) [⟨S1024x1024, A⟩, ⟨S1024x1024, B⟩, ⟨S1024x1024, C⟩]
    concatenates_S1024x1024_S1024x1024_S1024x1024_S1024x3072_d1 (ix2 k c) 2 (show 2 < 3 by decide) S1024x1024 C rfl rfl 2048 rfl (ix2 k e)
    (fun b hb => match b with
      | ⟨0, _⟩ => rfl
      | ⟨1, _⟩ => absurd rfl hb) hc

/-- The stacked weights, as the three transposed matrices laid side by side. -/
theorem host0_v6_term :
    (StableHlo.after (hostOps0 (F := Ideal)) W (Proc.devRef .tc main_v6) : S1024x3072.Idx → EReal)
      = concatenate S1024x3072 1
          [⟨S1024x1024, transpose S1024x1024 [1, 0] (W (Proc.devRef .tc main_arg2) : S1024x1024.Idx → EReal) transposes_S1024x1024_S1024x1024_1_0⟩,
           ⟨S1024x1024, transpose S1024x1024 [1, 0] (W (Proc.devRef .tc main_arg3) : S1024x1024.Idx → EReal) transposes_S1024x1024_S1024x1024_1_0⟩,
           ⟨S1024x1024, transpose S1024x1024 [1, 0] (W (Proc.devRef .tc main_arg4) : S1024x1024.Idx → EReal) transposes_S1024x1024_S1024x1024_1_0⟩]
          concatenates_S1024x1024_S1024x1024_S1024x1024_S1024x3072_d1 := by
  simp only [StableHlo.after_cons, StableHlo.after_nil]
  rw [StableHlo.unary_result, Cert.Lib.nary3_result]
  repeat (first
    | rw [StableHlo.unary_result]
    | (rw [StableHlo.unary_result_ne]; rotate_left; decide)
    | (rw [StableHlo.reshape_result_ne]; rotate_left; decide))
  rfl

/-- The stacked weights: the first third of the columns is Wq transposed, -/
theorem host0_v6_q (k e : Fin 1024) :
    (StableHlo.after (hostOps0 (F := Ideal)) W (Proc.devRef .tc main_v6) : S1024x3072.Idx → EReal)
        (ix2 k (⟨e.val, by have := e.isLt; omega⟩ : Fin 3072))
      = (W (Proc.devRef .tc main_arg2) : S1024x1024.Idx → EReal) (ix2 e k) := by
  rw [host0_v6_term]
  exact (concat3_read0 _ _ _ k e _ (Nat.zero_add _)).trans (transpose2_read _ k e)
/-- the second Wk transposed, -/
theorem host0_v6_k (k e : Fin 1024) :
    (StableHlo.after (hostOps0 (F := Ideal)) W (Proc.devRef .tc main_v6) : S1024x3072.Idx → EReal)
        (ix2 k (⟨1024 + e.val, by have := e.isLt; omega⟩ : Fin 3072))
      = (W (Proc.devRef .tc main_arg3) : S1024x1024.Idx → EReal) (ix2 e k) := by
  rw [host0_v6_term]
  exact (concat3_read1 _ _ _ k e _ rfl).trans (transpose2_read _ k e)
/-- the third Wv transposed. -/
theorem host0_v6_v (k e : Fin 1024) :
    (StableHlo.after (hostOps0 (F := Ideal)) W (Proc.devRef .tc main_v6) : S1024x3072.Idx → EReal)
        (ix2 k (⟨2048 + e.val, by have := e.isLt; omega⟩ : Fin 3072))
      = (W (Proc.devRef .tc main_arg4) : S1024x1024.Idx → EReal) (ix2 e k) := by
  rw [host0_v6_term]
  exact (concat3_read2 _ _ _ k e _ rfl).trans (transpose2_read _ k e)

/-! ## Between the first and the second kernel -/

/-- One column third of the product, cut from column `o`, split into 16 heads of 64 with the head axis moved in front of
    the sequence axis and the batch and head axes merged: (g, s, d) reads row 2048·(g / 16) + s, column
    o + 64·(g % 16) + d. -/
theorem heads_read (o : Nat) (X : S4096x3072.Idx → EReal) (hs : S4096x3072.Slices ![0, o] S4096x1024)
    (g : Fin 32) (s : Fin 2048) (d : Fin 64) (c : Fin 3072) (hc : c.val = o + (g.val % 16 * 64 + d.val)) :
    shapeCast S32x2048x64 (transpose S2x16x2048x64 [0, 2, 1, 3]
        (shapeCast S2x2048x16x64 (extractStridedSlice S4096x1024 ![0, o] X hs) shapeCasts_S4096x1024_S2x2048x16x64)
        transposes_S2x2048x16x64_S2x16x2048x64_0_2_1_3) shapeCasts_S2x16x2048x64_S32x2048x64 (ix3 g s d)
      = X (ix2 (⟨g.val / 16 * 2048 + s.val, by have := g.isLt; have := s.isLt; omega⟩ : Fin 4096) c) := by
  have hg := g.isLt; have hs' := s.isLt; have hd := d.isLt
  refine (shapeCast_apply _ shapeCasts_S2x16x2048x64_S32x2048x64 _
    (ix4 (⟨g.val / 16, by omega⟩ : Fin 2) (⟨g.val % 16, Nat.mod_lt _ (by decide)⟩ : Fin 16) s d)
    (by rewrite [Shape.rowMajor_val_four, Shape.rowMajor_val_three]
        show ((g.val / 16 * 16 + g.val % 16) * 2048 + s.val) * 64 + d.val = (g.val * 2048 + s.val) * 64 + d.val
        omega)).trans ?_
  refine (transpose_apply [0, 2, 1, 3] _ transposes_S2x2048x16x64_S2x16x2048x64_0_2_1_3 _
    (ix4 (⟨g.val / 16, by omega⟩ : Fin 2) s (⟨g.val % 16, Nat.mod_lt _ (by decide)⟩ : Fin 16) d)
    (fun b => match b with
      | ⟨0, _⟩ => rfl
      | ⟨1, _⟩ => rfl
      | ⟨2, _⟩ => rfl
      | ⟨3, _⟩ => rfl)).trans ?_
  refine (shapeCast_apply _ shapeCasts_S4096x1024_S2x2048x16x64 _
    (ix2 (⟨g.val / 16 * 2048 + s.val, by omega⟩ : Fin 4096) (⟨g.val % 16 * 64 + d.val, by omega⟩ : Fin 1024))
    (by rewrite [Shape.rowMajor_val_two, Shape.rowMajor_val_four]
        show (g.val / 16 * 2048 + s.val) * 1024 + (g.val % 16 * 64 + d.val)
          = ((g.val / 16 * 2048 + s.val) * 16 + g.val % 16) * 64 + d.val
        omega)).trans ?_
  exact slice2_axis1_apply o X hs _ _ c hc

/-- The queries by head-batch: (g, s, d) reads row 2048·(g / 16) + s, column 64·(g % 16) + d of the product. -/
theorem host1_v14 (g : Fin 32) (s : Fin 2048) (d : Fin 64) :
    (StableHlo.after (hostOps1 (F := Ideal)) W (Proc.devRef .tc main_v14) : S32x2048x64.Idx → EReal) (ix3 g s d)
      = (W (Proc.devRef .tc main_v7) : S4096x3072.Idx → EReal)
          (ix2 (⟨g.val / 16 * 2048 + s.val, by have := g.isLt; have := s.isLt; omega⟩ : Fin 4096)
            (⟨g.val % 16 * 64 + d.val, by have := g.isLt; have := d.isLt; omega⟩ : Fin 3072)) := by
  have h : (StableHlo.after (hostOps1 (F := Ideal)) W (Proc.devRef .tc main_v14) : S32x2048x64.Idx → EReal)
      = shapeCast S32x2048x64 (transpose S2x16x2048x64 [0, 2, 1, 3]
          (shapeCast S2x2048x16x64 (extractStridedSlice S4096x1024 ![0, 0] (W (Proc.devRef .tc main_v7) : S4096x3072.Idx → EReal)
            slices_S4096x3072_S4096x1024_0_0) shapeCasts_S4096x1024_S2x2048x16x64)
          transposes_S2x2048x16x64_S2x16x2048x64_0_2_1_3) shapeCasts_S2x16x2048x64_S32x2048x64 := by
    after_results
    rfl
  rw [h]
  exact heads_read 0 _ slices_S4096x3072_S4096x1024_0_0 g s d _ (Nat.zero_add _).symm
/-- The keys: the same in the second third of the columns. -/
theorem host1_v18 (g : Fin 32) (s : Fin 2048) (d : Fin 64) :
    (StableHlo.after (hostOps1 (F := Ideal)) W (Proc.devRef .tc main_v18) : S32x2048x64.Idx → EReal) (ix3 g s d)
      = (W (Proc.devRef .tc main_v7) : S4096x3072.Idx → EReal)
          (ix2 (⟨g.val / 16 * 2048 + s.val, by have := g.isLt; have := s.isLt; omega⟩ : Fin 4096)
            (⟨1024 + (g.val % 16 * 64 + d.val), by have := g.isLt; have := d.isLt; omega⟩ : Fin 3072)) := by
  have h : (StableHlo.after (hostOps1 (F := Ideal)) W (Proc.devRef .tc main_v18) : S32x2048x64.Idx → EReal)
      = shapeCast S32x2048x64 (transpose S2x16x2048x64 [0, 2, 1, 3]
          (shapeCast S2x2048x16x64 (extractStridedSlice S4096x1024 ![0, 1024] (W (Proc.devRef .tc main_v7) : S4096x3072.Idx → EReal)
            slices_S4096x3072_S4096x1024_0_1024) shapeCasts_S4096x1024_S2x2048x16x64)
          transposes_S2x2048x16x64_S2x16x2048x64_0_2_1_3) shapeCasts_S2x16x2048x64_S32x2048x64 := by
    after_results
    rfl
  rw [h]
  exact heads_read 1024 _ slices_S4096x3072_S4096x1024_0_1024 g s d _ rfl
/-- The values: the same in the last third. -/
theorem host1_v22 (g : Fin 32) (s : Fin 2048) (d : Fin 64) :
    (StableHlo.after (hostOps1 (F := Ideal)) W (Proc.devRef .tc main_v22) : S32x2048x64.Idx → EReal) (ix3 g s d)
      = (W (Proc.devRef .tc main_v7) : S4096x3072.Idx → EReal)
          (ix2 (⟨g.val / 16 * 2048 + s.val, by have := g.isLt; have := s.isLt; omega⟩ : Fin 4096)
            (⟨2048 + (g.val % 16 * 64 + d.val), by have := g.isLt; have := d.isLt; omega⟩ : Fin 3072)) := by
  have h : (StableHlo.after (hostOps1 (F := Ideal)) W (Proc.devRef .tc main_v22) : S32x2048x64.Idx → EReal)
      = shapeCast S32x2048x64 (transpose S2x16x2048x64 [0, 2, 1, 3]
          (shapeCast S2x2048x16x64 (extractStridedSlice S4096x1024 ![0, 2048] (W (Proc.devRef .tc main_v7) : S4096x3072.Idx → EReal)
            slices_S4096x3072_S4096x1024_0_2048) shapeCasts_S4096x1024_S2x2048x16x64)
          transposes_S2x2048x16x64_S2x16x2048x64_0_2_1_3) shapeCasts_S2x16x2048x64_S32x2048x64 := by
    after_results
    rfl
  rw [h]
  exact heads_read 2048 _ slices_S4096x3072_S4096x1024_0_2048 g s d _ rfl

/-! ## Between the second and the third kernel -/

/-- The heads side by side again: row i, column e reads head-batch 16·(i / 2048) + e / 64, row i % 2048, entry e % 64. -/
theorem host2_v27 (i : Fin 4096) (e : Fin 1024) :
    (StableHlo.after (hostOps2 (F := Ideal)) W (Proc.devRef .tc main_v27) : S4096x1024.Idx → EReal) (ix2 i e)
      = (W (Proc.devRef .tc main_v23) : S32x2048x64.Idx → EReal)
          (ix3 (⟨i.val / 2048 * 16 + e.val / 64, by have := i.isLt; have := e.isLt; omega⟩ : Fin 32)
            (⟨i.val % 2048, Nat.mod_lt _ (by decide)⟩ : Fin 2048) (⟨e.val % 64, Nat.mod_lt _ (by decide)⟩ : Fin 64)) := by
  have h : (StableHlo.after (hostOps2 (F := Ideal)) W (Proc.devRef .tc main_v27) : S4096x1024.Idx → EReal)
      = shapeCast S4096x1024 (transpose S2x2048x16x64 [0, 2, 1, 3]
          (shapeCast S2x16x2048x64 (W (Proc.devRef .tc main_v23) : S32x2048x64.Idx → EReal) shapeCasts_S32x2048x64_S2x16x2048x64)
          transposes_S2x16x2048x64_S2x2048x16x64_0_2_1_3) shapeCasts_S2x2048x16x64_S4096x1024 := by
    after_results
    rfl
  rw [h]
  have hi := i.isLt; have he := e.isLt
  -- the merged row-major position is ((b·2048 + s)·16 + h)·64 + d with i = 2048·b + s and e = 64·h + d
  refine (shapeCast_apply _ shapeCasts_S2x2048x16x64_S4096x1024 _
    (ix4 (⟨i.val / 2048, by omega⟩ : Fin 2) (⟨i.val % 2048, Nat.mod_lt _ (by decide)⟩ : Fin 2048)
      (⟨e.val / 64, by omega⟩ : Fin 16) (⟨e.val % 64, Nat.mod_lt _ (by decide)⟩ : Fin 64))
    (by rewrite [Shape.rowMajor_val_four, Shape.rowMajor_val_two]
        show ((i.val / 2048 * 2048 + i.val % 2048) * 16 + e.val / 64) * 64 + e.val % 64 = i.val * 1024 + e.val
        omega)).trans ?_
  refine (transpose_apply [0, 2, 1, 3] _ transposes_S2x16x2048x64_S2x2048x16x64_0_2_1_3 _
    (ix4 (⟨i.val / 2048, by omega⟩ : Fin 2) (⟨e.val / 64, by omega⟩ : Fin 16)
      (⟨i.val % 2048, Nat.mod_lt _ (by decide)⟩ : Fin 2048) (⟨e.val % 64, Nat.mod_lt _ (by decide)⟩ : Fin 64))
    (fun b => match b with
      | ⟨0, _⟩ => rfl
      | ⟨1, _⟩ => rfl
      | ⟨2, _⟩ => rfl
      | ⟨3, _⟩ => rfl)).trans ?_
  exact shapeCast_apply (s := S32x2048x64) (W (Proc.devRef .tc main_v23)) shapeCasts_S32x2048x64_S2x16x2048x64 _ _
    (by show (S32x2048x64.rowMajor _).val = (S2x16x2048x64.rowMajor _).val
        rewrite [Shape.rowMajor_val_three, Shape.rowMajor_val_four]
        show ((i.val / 2048 * 16 + e.val / 64) * 2048 + i.val % 2048) * 64 + e.val % 64
          = ((i.val / 2048 * 16 + e.val / 64) * 2048 + i.val % 2048) * 64 + e.val % 64
        rfl)

/-- Wo transposed. -/
theorem host2_v29 (e o : Fin 1024) :
    (StableHlo.after (hostOps2 (F := Ideal)) W (Proc.devRef .tc main_v29) : S1024x1024.Idx → EReal) (ix2 e o)
      = (W (Proc.devRef .tc main_arg5) : S1024x1024.Idx → EReal) (ix2 o e) := by
  have h : (StableHlo.after (hostOps2 (F := Ideal)) W (Proc.devRef .tc main_v29) : S1024x1024.Idx → EReal)
      = transpose S1024x1024 [1, 0] (W (Proc.devRef .tc main_arg5) : S1024x1024.Idx → EReal) transposes_S1024x1024_S1024x1024_1_0 := by
    after_results
    rfl
  rw [h]
  exact transpose_apply (s := S1024x1024) [1, 0] (W (Proc.devRef .tc main_arg5)) transposes_S1024x1024_S1024x1024_1_0 _ _ (fun b => match b with
    | ⟨0, _⟩ => rfl
    | ⟨1, _⟩ => rfl)

/-! ## After the third kernel -/

/-- The rows unflattened: (b, s, o) reads row 2048·b + s. -/
theorem host3_v31 (b : Fin 2) (s : Fin 2048) (o : Fin 1024) :
    (StableHlo.after (hostOps3 (F := Ideal)) W (Proc.devRef .tc main_v31) : S2x2048x1024.Idx → EReal) (ix3 b s o)
      = (W (Proc.devRef .tc main_v30) : S4096x1024.Idx → EReal)
          (ix2 (⟨b.val * 2048 + s.val, by have := b.isLt; have := s.isLt; omega⟩ : Fin 4096) o) := by
  have e : (StableHlo.after (hostOps3 (F := Ideal)) W (Proc.devRef .tc main_v31) : S2x2048x1024.Idx → EReal)
      = shapeCast S2x2048x1024 (W (Proc.devRef .tc main_v30) : S4096x1024.Idx → EReal) shapeCasts_S4096x1024_S2x2048x1024 := by
    after_results
    rfl
  rw [e]
  exact shapeCast_apply (s := S4096x1024) (W (Proc.devRef .tc main_v30)) shapeCasts_S4096x1024_S2x2048x1024 _ _
    (by show (S4096x1024.rowMajor _).val = (S2x2048x1024.rowMajor _).val
        rewrite [Shape.rowMajor_val_two, Shape.rowMajor_val_three]; rfl)

end Cert.KernelIdeal.Val

end
-- ==== Proof.Spec.lean ====
/-
  The function both programs compute, over plain coordinates on the extended reals.

  Multi-head attention with 16 heads of width 64 over activations x[b, s, ·] (2 × 2048 × 1024), four weight matrices
  W[out, in] (1024 × 1024) and an additive mask[s, t] (2048 × 2048):
    q, k, v = x·Wqᵀ, x·Wkᵀ, x·Wvᵀ                       (`proj`)
    w[b,h,s,t] = exp((Σ_d q[b,s,64h+d]·k[b,t,64h+d])·(1/8) + mask[s,t])      (`wgt`)
    den[b,h,s] = Σ_t w[b,h,s,t] + ε                                          (`den`)
    ctx[b,h,s,d] = Σ_t (w[b,h,s,t] / den[b,h,s])·v[b,t,64h+d]               (`ctx`)
    out[b,s,64h+d] = ctx[b,h,s,d]                                            (`merge`)
    z = out·Woᵀ                                                              (`result`)
  There is no subtraction of a row maximum: the softmax is the plain quotient, as both programs spell it.
  The scale is the float 0.125, which is exactly 1/8, so multiplying by it and dividing by the float 8.0 agree on every
  extended real (`div_eight`).
-/
import Idealize.ShloMosaic.PureOps.Ideal
import Idealize.ShloMosaic.PureOps.Ideal.Laws
import Idealize.ShloMosaic.Lib.ValueIdx

noncomputable section

namespace Cert.Attn

open Idealize.ShloMosaic

/-- Activations x[b, s, e]. -/
abbrev Act := Fin 2 → Fin 2048 → Fin 1024 → EReal
/-- A weight matrix W[out, in]. -/
abbrev Wt := Fin 1024 → Fin 1024 → EReal
/-- The additive mask[s, t]. -/
abbrev Msk := Fin 2048 → Fin 2048 → EReal

/-- A bias-free linear layer: y[b, s, e] = Σ_d x[b, s, d] · W[e, d]. -/
def proj (x : Act) (W : Wt) : Act := fun b s e => ∑ d : Fin 1024, x b s d * W e d

/-- Column 64h + d of the model axis: entry d of head h. -/
def col (h : Fin 16) (d : Fin 64) : Fin 1024 := ⟨h.val * 64 + d.val, by have := h.isLt; have := d.isLt; omega⟩

/-- The score scale, the float 0.125. -/
def scale : EReal := Ideal.ofBits .f32 0x3E000000#32
/-- The denominator's guard, the float nearest 1e-10 (the same word in both programs; never evaluated). -/
def eps : EReal := Ideal.ofBits .f32 0x2EDBE6FF#32

/-- The unnormalised attention weight of key t for query s in head h of batch b. -/
def wgt (q k : Act) (mk : Msk) (b : Fin 2) (h : Fin 16) (s t : Fin 2048) : EReal :=
  Ideal.exp ((∑ d : Fin 64, q b s (col h d) * k b t (col h d)) * scale + mk s t)

/-- The softmax denominator of query s: the weights' sum over the keys, plus ε. -/
def den (q k : Act) (mk : Msk) (b : Fin 2) (h : Fin 16) (s : Fin 2048) : EReal :=
  (∑ t : Fin 2048, wgt q k mk b h s t) + eps

/-- The attention output of head h at query s, entry d: the normalised weights against the values. -/
def ctx (q k v : Act) (mk : Msk) (b : Fin 2) (h : Fin 16) (s : Fin 2048) (d : Fin 64) : EReal :=
  ∑ t : Fin 2048, Ideal.div (wgt q k mk b h s t) (den q k mk b h s) * v b t (col h d)

/-- The heads laid side by side again along the model axis: column e belongs to head e / 64, entry e % 64. -/
def merge (q k v : Act) (mk : Msk) : Act := fun b s e =>
  ctx q k v mk b ⟨e.val / 64, by have := e.isLt; omega⟩ s ⟨e.val % 64, Nat.mod_lt _ (by decide)⟩

/-- The whole layer. -/
def result (x : Act) (mk : Msk) (Wq Wk Wv Wo : Wt) : Act :=
  proj (merge (proj x Wq) (proj x Wk) (proj x Wv) mk) Wo

/-! ### One query row at a time

The attention of one query row against one head's keys and values: what one row of a grid point's tile computes. -/

/-- The unnormalised weight of key `t` for a query row `qrow` (64 entries) against keys `k[t, ·]` under mask row `mrow`. -/
def wgtRow (qrow : Fin 64 → EReal) (k : Fin 2048 → Fin 64 → EReal) (mrow : Fin 2048 → EReal) (t : Fin 2048) : EReal :=
  Ideal.exp ((∑ e : Fin 64, qrow e * k t e) * scale + mrow t)

/-- The row's attention output at entry `d`: the weights, each divided by their sum plus ε, against the values. -/
def ctxRow (qrow : Fin 64 → EReal) (k v : Fin 2048 → Fin 64 → EReal) (mrow : Fin 2048 → EReal) (d : Fin 64) : EReal :=
  ∑ t : Fin 2048, Ideal.div (wgtRow qrow k mrow t) ((∑ t' : Fin 2048, wgtRow qrow k mrow t') + eps) * v t d

/-- `ctx` is `ctxRow` of the head's slices. -/
theorem ctx_eq_ctxRow (q k v : Act) (mk : Msk) (b : Fin 2) (h : Fin 16) (s : Fin 2048) (d : Fin 64) :
    ctx q k v mk b h s d
      = ctxRow (fun e => q b s (col h e)) (fun t e => k b t (col h e)) (fun t e => v b t (col h e)) (mk s) d := rfl

/-- The float 0.125 denotes the real 1/8. -/
theorem scale_eq : scale = ((1 / 8 : ℝ) : EReal) := by
  unfold scale
  simp [Ideal.ofBits, Ideal.ieee, -EReal.coe_mul]; norm_num

/-- The float 8.0 denotes the real 8. -/
theorem ofBits_eight : Ideal.ofBits .f32 0x41000000#32 = ((8 : ℝ) : EReal) := by
  simp [Ideal.ofBits, Ideal.ieee, -EReal.coe_mul]; norm_num

/-- Dividing by the float 8.0 is multiplying by the float 0.125, at every extended real (the infinities included). -/
theorem div_eight (x : EReal) : Ideal.div x (Ideal.ofBits .f32 0x41000000#32) = x * scale := by
  rw [ofBits_eight, scale_eq, Ideal.div_coe (by norm_num : (8 : ℝ) ≠ 0)]

/-! ### Arrays as functions of their coordinates -/

/-- A rank-3 array read by its three coordinates. -/
def cur3 {n0 n1 n2 : Nat} (a : (⟨3, ![n0, n1, n2]⟩ : Shape).Idx → EReal) : Fin n0 → Fin n1 → Fin n2 → EReal :=
  fun b s e => a (ValueIdx.ix3 b s e)
/-- A rank-2 array read by its two coordinates. -/
def cur2 {n0 n1 : Nat} (a : (⟨2, ![n0, n1]⟩ : Shape).Idx → EReal) : Fin n0 → Fin n1 → EReal :=
  fun r c => a (ValueIdx.ix2 r c)
/-- A function of three coordinates as a rank-3 array. -/
def arr3 {n0 n1 n2 : Nat} (f : Fin n0 → Fin n1 → Fin n2 → EReal) : (⟨3, ![n0, n1, n2]⟩ : Shape).Idx → EReal :=
  fun i => f (i 0) (i 1) (i 2)

theorem arr3_ix3 {n0 n1 n2 : Nat} (f : Fin n0 → Fin n1 → Fin n2 → EReal) (b : Fin n0) (s : Fin n1) (e : Fin n2) :
    arr3 f (ValueIdx.ix3 b s e) = f b s e := rfl

/-- An array of rank 3 is determined by its values at the indices built from coordinates. -/
theorem ext3 {n0 n1 n2 : Nat} {a a' : (⟨3, ![n0, n1, n2]⟩ : Shape).Idx → EReal}
    (h : ∀ b s e, a (ValueIdx.ix3 b s e) = a' (ValueIdx.ix3 b s e)) : a = a' :=
  funext fun i => by rw [ValueIdx.eq_ix3 i]; exact h _ _ _

end Cert.Attn

end
-- ==== Proof.KI.Pay.lean ====
/-
  What each kernel body stores, read at one index, at the exact instance.

  The two matrix-product kernels store the product of their two loaded blocks: entry (r, c) is the sum over k of
  x[r, k] · w[k, c] (the product accumulates into zero, and changes of float format are the identity). The attention
  kernel stores, at (0, r, d), the attention of query row r of its tile against the head's keys and values under mask
  row r: `Cert.Attn.ctxRow`. Its lane sum is the plain sum over the keys, its scale the float 0.125, its guard the
  float word `Cert.Attn.eps`, its quotient the exact quotient.
-/
import proofs.«156318_j51161650430216_1_alg».proof.Proof.Gen.KernelIdeal.Skeleton
import proofs.«156318_j51161650430216_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Cert.Attn

/-! ### The 512 × 1024 by 1024 × 512 product: operand indices at output (r, c) and contraction coordinate k -/

/-- The left operand's row is the output's row. -/
theorem lhs_mm_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- The left operand's column is the contraction coordinate. -/
theorem lhs_mm_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- The right operand's row is the contraction coordinate. -/
theorem rhs_mm_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
/-- The right operand's column is the output's column. -/
theorem rhs_mm_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product accumulated into zero, at (r, c): the sum over k of x[r, k] · w[k, c]. -/
theorem mm_apply (x : FVec Ideal S512x1024 .bf16) (w : FVec Ideal S1024x512 .bf16) (r c : Fin 512) :
    matmul (F := Ideal) dot_S512x1024_S1024x512_S512x512_1_0_0_1_n_n none x w (constant S512x512 .f32 0x00000000#32) (ix2 r c)
      = ∑ k : Fin 1024, x (ix2 r k) * w (ix2 k c) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 r c) ((ValueIdx.contrEquiv1 dot_S512x1024_S1024x512_S512x512_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S512x1024_S1024x512_S512x512_1_0_0_1_n_n.rhsIdx (ix2 r c) ((ValueIdx.contrEquiv1 dot_S512x1024_S1024x512_S512x512_1_0_0_1_n_n 1024 rfl rfl).symm k) = ix2 k c := funext fun a => Fin.ext (by
    match a with
    | ⟨0, _⟩ => exact (rhs_mm_0 _ _).trans hk
    | ⟨1, _⟩ => exact rhs_mm_1 _ _)
  rw [el, er]

/-- The first matrix product's stored block at (r, c). -/
theorem pay0_apply (x : FVec Ideal S512x1024 .bf16) (w : FVec Ideal S1024x512 .bf16) (r c : Fin 512) :
    k0_pay1 (F := Ideal) x w (ix2 r c) = ∑ k : Fin 1024, x (ix2 r k) * w (ix2 k c) := by
  unfold k0_pay1
  rw [shapeCast_self, shapeCast_self]
  exact mm_apply x w r c

/-- The last matrix product's stored block at (r, c). -/
theorem pay2_apply (x : FVec Ideal S512x1024 .bf16) (w : FVec Ideal S1024x512 .bf16) (r c : Fin 512) :
    k2_pay1 (F := Ideal) x w (ix2 r c) = ∑ k : Fin 1024, x (ix2 r k) * w (ix2 k c) := by
  unfold k2_pay1
  rw [shapeCast_self, shapeCast_self]
  exact mm_apply x w r c

/-! ### The scores' product q · kᵀ (512 × 64 by 2048 × 64, both contracted along their second axis) -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The scores at (r, t): the sum over e of q[r, e] · k[t, e]. -/
theorem qk_apply (q : FVec Ideal S512x64 .bf16) (k : FVec Ideal S2048x64 .bf16) (r : Fin 512) (t : Fin 2048) :
    matmul (F := Ideal) dot_S512x64_S2048x64_S512x2048_1_1_0_0_n_n none q k (constant S512x2048 .f32 0x00000000#32) (ix2 r t)
      = ∑ e : Fin 64, q (ix2 r e) * k (ix2 t e) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 r t) ((ValueIdx.contrEquiv1 dot_S512x64_S2048x64_S512x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 r t) ((ValueIdx.contrEquiv1 dot_S512x64_S2048x64_S512x2048_1_1_0_0_n_n 64 rfl rfl).symm k) = ix2 t k := funext fun a => Fin.ext (by
    match a with
    | ⟨0, _⟩ => exact rhs_qk_0 _ _
    | ⟨1, _⟩ => exact (rhs_qk_1 _ _).trans hk)
  rw [el, er]

/-! ### The weights' product against the values (512 × 2048 by 2048 × 64) -/

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weighted values at (r, d): the sum over t of p[r, t] · v[t, d]. -/
theorem pv_apply (p : FVec Ideal S512x2048 .bf16) (v : FVec Ideal S2048x64 .bf16) (r : Fin 512) (d : Fin 64) :
    matmul (F := Ideal) dot_S512x2048_S2048x64_S512x64_1_0_0_1_n_n none p v (constant S512x64 .f32 0x00000000#32) (ix2 r d)
      = ∑ t : Fin 2048, p (ix2 r t) * v (ix2 t d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ### The row sum and its two keep-dimension forms -/

/-- The sum along the keys' axis at row r: the plain sum over t. -/
theorem rowSum_apply (p : FVec Ideal S512x2048 .f32) (hφ : FKind.Formats .f32)
    (hacc : (0x00000000#32 : BitVec 32) = FKind.add.neutral .f32 hφ) (r : Fin 512) :
    multiReduction (F := Ideal) .add [1] S512 p 0x00000000#32 reduces_S512x2048_S512 hφ hacc (ix1 r)
      = ∑ t : Fin 2048, p (ix2 r t) := by
  refine (Ideal.multiReduction_add_single p 0x00000000#32 reduces_S512x2048_S512 hφ hacc (ix1 r)).trans ?_
  refine Finset.sum_congr rfl fun t _ => congrArg p (funext fun a => Fin.ext ?_)
  match a with
  | ⟨0, _⟩ => rfl
  | ⟨1, _⟩ => rfl

/-- A vector of length a cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along a new second axis of length b reads, at (i, j), the column at (i, 0). -/
theorem broadcastTo_a1_ab_apply {α : Type} {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      have hi := i.isLt
      split <;> omega
    | ⟨1, _⟩ => rfl)

/-! ### The unnormalised weights -/

/-- The exponential of a block, at an index. -/
theorem exp_apply {s : Shape} {φ : FTy} (x : FVec Ideal s φ) (i : s.Idx) : exp x i = Ideal.exp (x i) := rfl

/-- The kernel's weight at (r, t): the exponential of the scaled score plus the mask, which is the row form's weight of
key t for query row r. -/
theorem wgt_apply (q : FVec Ideal S1x512x64 .bf16) (k : FVec Ideal S1x2048x64 .bf16) (mk : FVec Ideal S512x2048 .f32)
    (r : Fin 512) (t : Fin 2048) :
    exp (F := Ideal) (addf (mulf (matmul dot_S512x64_S2048x64_S512x2048_1_1_0_0_n_n none (shapeCast S512x64 q shapeCasts_S1x512x64_S512x64)
        (shapeCast S2048x64 k shapeCasts_S1x2048x64_S2048x64) (constant S512x2048 .f32 0x00000000#32))
        (broadcast S512x2048 (Scalar.ofBits .f32 0x3E000000#32))) mk) (ix2 r t)
      = wgtRow (fun e => q (ix3 (0 : Fin 1) r e)) (fun t e => k (ix3 (0 : Fin 1) t e)) (fun t => mk (ix2 r t)) t := by
  unfold wgtRow scale
  refine (exp_apply _ _).trans (congrArg Ideal.exp ?_)
  refine (addf_apply _ _ _).trans (congrArg₂ (· + ·) ?_ rfl)
  refine (mulf_apply _ _ _).trans (congrArg₂ (· * ·) ?_ rfl)
  refine (qk_apply _ _ r t).trans ?_
  exact Finset.sum_congr rfl fun e _ => congrArg₂ (· * ·) (shapeCast_1ab_ab_apply q _ r e) (shapeCast_1ab_ab_apply k _ t e)

/-- The attention kernel's stored block at (0, r, d): one query row's attention. -/
theorem pay1_apply (q : FVec Ideal S1x512x64 .bf16) (k v : FVec Ideal S1x2048x64 .bf16) (mk : FVec Ideal S512x2048 .f32)
    (r : Fin 512) (d : Fin 64) :
    k1_pay1 (F := Ideal) q k v mk (ix3 (0 : Fin 1) r d)
      = ctxRow (fun e => q (ix3 (0 : Fin 1) r e)) (fun t e => k (ix3 (0 : Fin 1) t e)) (fun t e => v (ix3 (0 : Fin 1) t e))
          (fun t => mk (ix2 r t)) d := by
  unfold k1_pay1
  refine (shapeCast_ab_1ab_apply _ _ (0 : Fin 1) r d).trans ?_
  refine (pv_apply _ _ r d).trans ?_
  unfold ctxRow
  refine Finset.sum_congr rfl fun t _ => ?_
  refine congrArg₂ (· * ·) ?_ (shapeCast_1ab_ab_apply v _ t d)
  refine (truncf_apply (ψ := .bf16) (φ := .f32) _ bitsLt_bf16_f32 (ix2 r t)).trans ?_
  refine (divf_apply _ _ _).trans ?_
  refine congrArg₂ Ideal.div (wgt_apply q k mk r t) ?_
  refine (broadcastTo_a1_ab_apply _ _ r t).trans ?_
  refine (addf_apply _ _ _).trans ?_
  refine congrArg₂ (· + ·) ?_ rfl
  refine (shapeCast_a_a1_apply _ _ r (0 : Fin 1)).trans ?_
  refine (rowSum_apply _ _ _ r).trans ?_
  exact Finset.sum_congr rfl fun t' _ => wgt_apply q k mk r t'

end Cert.KernelIdeal.Val

end
-- ==== Proof.KI.Value0.lean ====
/-
  The first kernel call's result array, entry by entry.

  Grid point (a, b) of the 8 × 6 grid writes block (a, b) of the 4096 × 3072 result: rows 512·a …, columns 512·b …, the
  product of the activations' row block a (512 × 1024) and the stacked weights' column block b (1024 × 512). The blocks
  tile the array, each written once, so entry (i, j) of the result after the call is the entry (i % 512, j % 512) of the
  block of point (i / 512, j / 512), which is the sum over k of x[i, k] · w[k, j] of the arrays on entry.
-/
import proofs.«156318_j51161650430216_1_alg».proof.Proof.KI.Region0
import proofs.«156318_j51161650430216_1_alg».proof.Proof.KI.Pay
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem Cert.Attn
open Idealize.ShloMosaic.Pipeline (Dat)

variable (V : (c : Dev nD) → (b : Ref sig .tc) → Buf (Elt Ideal) ((c : Thread nD τ).loc b))

/-! ## Where each window's block sits -/

/-- The grid runs row-major with the second axis fastest, so point `t` has coordinates (t / 6, t % 6). The activations'
    window sits at block (t / 6, 0), the weights' at block (0, t % 6), the result's at block (t / 6, t % 6). -/
theorem idx_facts0 : ∀ t : Fin cfg0.N, win0_0.index t (0 : Fin 2) = t.val / 6
    ∧ win0_0.index t (1 : Fin 2) = 0
    ∧ win0_1.index t (0 : Fin 2) = 0
    ∧ win0_1.index t (1 : Fin 2) = t.val % 6
    ∧ win0_2.index t (0 : Fin 2) = t.val / 6
    ∧ win0_2.index t (1 : Fin 2) = t.val % 6 :=
  (by decide +kernel : ∀ t : Fin grid0.N, _)

/-! ## The arrays on entry and their blocks, as arrays of extended reals -/

/-- The activations x, 4096 × 1024, as the call finds them. -/
abbrev xarr0 (c : Dev nD) : S4096x1024.Idx → EReal := V c main_v1
/-- The stacked weights w, 1024 × 3072, as the call finds them. -/
abbrev warr0 (c : Dev nD) : S1024x3072.Idx → EReal := V c main_v6
/-- The activations' 512 × 1024 block at point `t`. -/
abbrev xblk0 (c : Dev nD) (t : Fin cfg0.N) : S512x1024.Idx → EReal := iblk0 V c 0 t
/-- The weights' 1024 × 512 block at point `t`. -/
abbrev wblk0 (c : Dev nD) (t : Fin cfg0.N) : S1024x512.Idx → EReal := iblk0 V c 1 t

/-- The product x · w by coordinates: entry (i, j) is the sum over k of x[i, k] · w[k, j]. -/
def prod0 (c : Dev nD) : Fin 4096 → Fin 3072 → EReal := fun i j =>
  ∑ k : Fin 1024, xarr0 V c (ix2 i k) * warr0 V c (ix2 k j)

/-- The same product as an array over the result's indices. -/
def G0 (c : Dev nD) : S4096x3072.Idx → EReal := fun i => prod0 V c (i 0) (i 1)

/-- Row r, column k of the activations' block at point `t` is x[512·(t / 6) + r, k]: a block's coordinate on an axis is its
    block index times the block's extent plus the coordinate inside the block. -/
theorem xblk0_apply (c : Dev nD) (t : Fin cfg0.N) (r : Fin 512) (k : Fin 1024) (i : Fin 4096)
    (hi : i.val = t.val / 6 * 512 + r.val) : xblk0 V c t (ix2 r k) = xarr0 V c (ix2 i k) := by
  obtain ⟨e0, e1, -, -, -, -⟩ := idx_facts0 t
  unfold xblk0 xarr0 iblk0
  rw [View.read_apply]
  show V c main_v1 _ = V c main_v1 _
  congr 1
  funext a
  apply Fin.ext
  match a with
  | ⟨0, _⟩ => show win0_0.index t (0 : Fin 2) * 512 + 1 * r.val = i.val; rw [e0]; omega
  | ⟨1, _⟩ => show win0_0.index t (1 : Fin 2) * 1024 + 1 * k.val = k.val; rw [e1]; omega

/-- Row k, column s of the weights' block at point `t` is w[k, 512·(t % 6) + s]. -/
theorem wblk0_apply (c : Dev nD) (t : Fin cfg0.N) (k : Fin 1024) (s : Fin 512) (j : Fin 3072)
    (hj : j.val = t.val % 6 * 512 + s.val) : wblk0 V c t (ix2 k s) = warr0 V c (ix2 k j) := by
  obtain ⟨-, -, e0, e1, -, -⟩ := idx_facts0 t
  unfold wblk0 warr0 iblk0
  rw [View.read_apply]
  show V c main_v6 _ = V c main_v6 _
  congr 1
  funext a
  apply Fin.ext
  match a with
  | ⟨0, _⟩ => show win0_1.index t (0 : Fin 2) * 1024 + 1 * k.val = k.val; rw [e0]; omega
  | ⟨1, _⟩ => show win0_1.index t (1 : Fin 2) * 512 + 1 * s.val = j.val; rw [e1]; omega

/-! ## What a point writes back -/

/-- The body's accesses start at the origin of their blocks. -/
theorem hz0 : (![0, 0] : Fin 2 → Nat) = fun _ => 0 := funext fun a => by fin_cases a <;> rfl

/-- The product of the two blocks of point `t` at (r, s) is the product of the whole arrays at the place
    (512·(t / 6) + r, 512·(t % 6) + s) where the result's block puts (r, s): both sums run over the same k, and term by
    term the blocks' entries are the arrays' entries. -/
theorem pay0_at (c : Dev nD) (t : Fin cfg0.N) (j : S512x512.Idx) :
    k0_pay1 (F := Ideal) (xblk0 V c t) (wblk0 V c t) j = G0 V c (((cfg0.win 2).blk t).view.emb j) := by
  obtain ⟨-, -, -, -, e4, e5⟩ := idx_facts0 t
  obtain ⟨r, s, rfl⟩ : ∃ (r : Fin 512) (s : Fin 512), j = ix2 r s := ⟨j 0, j 1, eq_ix2 j⟩
  have h0 : ((((cfg0.win 2).blk t).view.emb (ix2 r s)) 0).val = t.val / 6 * 512 + r.val := by
    show win0_2.index t (0 : Fin 2) * 512 + 1 * r.val = _
    rw [e4]; omega
  have h1 : ((((cfg0.win 2).blk t).view.emb (ix2 r s)) 1).val = t.val % 6 * 512 + s.val := by
    show win0_2.index t (1 : Fin 2) * 512 + 1 * s.val = _
    rw [e5]; omega
  refine (pay0_apply _ _ r s).trans ?_
  unfold G0 prod0
  refine Finset.sum_congr rfl fun k _ => ?_
  exact congrArg₂ (· * ·) (xblk0_apply V c t r k _ h0) (wblk0_apply V c t k s _ h1)

/-- What point `t` writes back is block `t` of the product of the arrays on entry. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S512x1024) hz0, View.ld_unit_zero (S := S1024x512) hz0]
  funext j
  exact pay0_at V c t j

/-! ## The blocks tile the result -/

/-- An index of the result is in point `t`'s block iff on each axis it lies in the block's 512 consecutive coordinates. -/
theorem mem_blk0 (t : Fin cfg0.N) (i : S4096x3072.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v7).slice (win0_2.rect t)).set ↔ _
  rw [View.set_slice_whole, Rect.mem_set_unit]
  exact Iff.rfl

/-- Entry (i, j) of the result lies in the block of the point with coordinates (i / 512, j / 512), the point number
    6·(i / 512) + j / 512, and every point writes its block back. -/
theorem cover0 (i : S4096x3072.Idx) :
    ∃ t : Fin cfg0.N, (cfg0.win 2).flush t = true ∧ i ∈ ((cfg0.win 2).blk t).view.set := by
  have hN : grid0.N = 48 := N_0
  have h0 : (i 0).val < 4096 := idx2_lt0 i
  have h1 : (i 1).val < 3072 := idx2_lt1 i
  have hn : (i 0).val / 512 * 6 + (i 1).val / 512 < grid0.N := by rw [hN]; omega
  obtain ⟨-, -, -, -, e4, e5⟩ := idx_facts0 ⟨(i 0).val / 512 * 6 + (i 1).val / 512, hn⟩
  have e4' : win0_2.index ⟨(i 0).val / 512 * 6 + (i 1).val / 512, hn⟩ (0 : Fin 2) = ((i 0).val / 512 * 6 + (i 1).val / 512) / 6 := e4
  have e5' : win0_2.index ⟨(i 0).val / 512 * 6 + (i 1).val / 512, hn⟩ (1 : Fin 2) = ((i 0).val / 512 * 6 + (i 1).val / 512) % 6 := e5
  refine ⟨⟨(i 0).val / 512 * 6 + (i 1).val / 512, hn⟩, flush0_2 _, ?_⟩
  rw [mem_blk0]
  intro a
  match a with
  | ⟨0, _⟩ =>
    show win0_2.index ⟨(i 0).val / 512 * 6 + (i 1).val / 512, hn⟩ (0 : Fin 2) * 512 ≤ (i 0).val ∧ (i 0).val < win0_2.index ⟨(i 0).val / 512 * 6 + (i 1).val / 512, hn⟩ (0 : Fin 2) * 512 + 512
    rw [e4']; omega
  | ⟨1, _⟩ =>
    show win0_2.index ⟨(i 0).val / 512 * 6 + (i 1).val / 512, hn⟩ (1 : Fin 2) * 512 ≤ (i 1).val ∧ (i 1).val < win0_2.index ⟨(i 0).val / 512 * 6 + (i 1).val / 512, hn⟩ (1 : Fin 2) * 512 + 512
    rw [e5']; omega

/-! ## The result array -/

/-- After the call the result array is the product of the arrays on entry: every point writes back its block of the
    product and the blocks cover the array. -/
theorem arr0_eq (c : Dev nD) : (dat0 V c).arrAt 2 cfg0.N = G0 V c :=
  (dat0 V c).arrAt_eq_of_cover 2 (G0 V c) (fun t _ => flushed0_eq V c t) (cover0)

/-- After the first kernel call its result array holds, at (i, j), the sum over k of the entry arrays' x[i, k] · w[k, j]. -/
theorem final0 (c : Dev nD) (i : Fin 4096) (j : Fin 3072) :
    cur2 (n0 := 4096) (n1 := 3072) ((dat0 V c).arrAt 2 cfg0.N) i j
      = ∑ k : Fin 1024, cur2 (n0 := 4096) (n1 := 1024) (V c main_v1) i k * cur2 (n0 := 1024) (n1 := 3072) (V c main_v6) k j :=
  (congrArg (fun a => cur2 (n0 := 4096) (n1 := 3072) a i j) (arr0_eq V c)).trans rfl

end Cert.KernelIdeal.Val

end
-- ==== Proof.KI.Value1.lean ====
/-
  The attention kernel call's result array, entry by entry.

  Grid point (a, g) of the 4 × 32 grid writes block (g, a) of the 32 × 2048 × 64 result: head-batch g, query rows 512·a …,
  computed from the queries' block (g, a), all keys and values of g, and mask rows 512·a …. The blocks tile the array,
  each written once, so entry (g, s, d) of the result after the call is the row attention `Cert.Attn.ctxRow` of query row s of
  head-batch g against that head-batch's keys and values under mask row s, all read from the arrays on entry.
-/
import proofs.«156318_j51161650430216_1_alg».proof.Proof.KI.Region1
import proofs.«156318_j51161650430216_1_alg».proof.Proof.KI.Pay
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem Cert.Attn
open Idealize.ShloMosaic.Pipeline (Dat)

variable (V : (c : Dev nD) → (b : Ref sig .tc) → Buf (Elt Ideal) ((c : Thread nD τ).loc b))

/-! ### The arrays on entry, by their literal types -/

/-- The queries, keys and values on entry, 32 × 2048 × 64, and the mask, 2048 × 2048. -/
abbrev qarr (c : Dev nD) : S32x2048x64.Idx → EReal := V c main_v14
abbrev karr (c : Dev nD) : S32x2048x64.Idx → EReal := V c main_v18
abbrev varr (c : Dev nD) : S32x2048x64.Idx → EReal := V c main_v22
abbrev marr (c : Dev nD) : S2048x2048.Idx → EReal := V c main_arg1

/-- What the result array ends holding: at (g, s, d) the row attention of query row s of head-batch g. -/
def attnArr (c : Dev nD) : S32x2048x64.Idx → EReal :=
  arr3 fun g s d => ctxRow (fun e => qarr V c (ix3 g s e)) (fun t e => karr V c (ix3 g t e)) (fun t e => varr V c (ix3 g t e))
    (fun t => marr V c (ix2 s t)) d

/-! ### The index maps at a grid point

Point t of the 4 × 32 grid has coordinates (t / 32, t % 32): the second grid axis runs fastest. -/

theorem idx_facts1 : ∀ t : Fin cfg1.N,
    win1_0.index t (0 : Fin 3) = t.val % 32 ∧ win1_0.index t (1 : Fin 3) = t.val / 32 ∧ win1_0.index t (2 : Fin 3) = 0
    ∧ win1_1.index t (0 : Fin 3) = t.val % 32 ∧ win1_1.index t (1 : Fin 3) = 0 ∧ win1_1.index t (2 : Fin 3) = 0
    ∧ win1_2.index t (0 : Fin 3) = t.val % 32 ∧ win1_2.index t (1 : Fin 3) = 0 ∧ win1_2.index t (2 : Fin 3) = 0
    ∧ win1_3.index t (0 : Fin 2) = t.val / 32 ∧ win1_3.index t (1 : Fin 2) = 0
    ∧ win1_4.index t (0 : Fin 3) = t.val % 32 ∧ win1_4.index t (1 : Fin 3) = t.val / 32 ∧ win1_4.index t (2 : Fin 3) = 0 :=
  (by decide +kernel : ∀ t : Fin grid1.N, _)

/-! ### Each input block read at a block-local index -/

/-- The queries' block at point t, at (u, r, e): the queries at (t % 32, 512·(t / 32) + r, e). -/
theorem qblk_apply (c : Dev nD) (t : Fin cfg1.N) (g : Fin 32) (s : Fin 2048) (u : Fin 1) (r : Fin 512) (e : Fin 64)
    (hg : g.val = t.val % 32) (hs : s.val = t.val / 32 * 512 + r.val) :
    (iblk1 V c 0 t : S1x512x64.Idx → EReal) (ix3 u r e) = qarr V c (ix3 g s e) := by
  obtain ⟨h0, h1, h2, -⟩ := idx_facts1 t
  unfold iblk1
  rw [View.read_apply]
  show V c main_v14 _ = V c main_v14 _
  congr 1
  funext a
  apply Fin.ext
  match a with
  | ⟨0, _⟩ => show win1_0.index t (0 : Fin 3) * 1 + 1 * u.val = g.val; rw [h0]; omega
  | ⟨1, _⟩ => show win1_0.index t (1 : Fin 3) * 512 + 1 * r.val = s.val; rw [h1]; omega
  | ⟨2, _⟩ => show win1_0.index t (2 : Fin 3) * 64 + 1 * e.val = e.val; rw [h2]; omega

/-- The keys' block at point t, at (u, t', e): the keys at (t % 32, t', e). -/
theorem kblk_apply (c : Dev nD) (t : Fin cfg1.N) (g : Fin 32) (u : Fin 1) (t' : Fin 2048) (e : Fin 64)
    (hg : g.val = t.val % 32) :
    (iblk1 V c 1 t : S1x2048x64.Idx → EReal) (ix3 u t' e) = karr V c (ix3 g t' e) := by
  obtain ⟨-, -, -, h0, h1, h2, -⟩ := idx_facts1 t
  unfold iblk1
  rw [View.read_apply]
  show V c main_v18 _ = V c main_v18 _
  congr 1
  funext a
  apply Fin.ext
  match a with
  | ⟨0, _⟩ => show win1_1.index t (0 : Fin 3) * 1 + 1 * u.val = g.val; rw [h0]; omega
  | ⟨1, _⟩ => show win1_1.index t (1 : Fin 3) * 2048 + 1 * t'.val = t'.val; rw [h1]; omega
  | ⟨2, _⟩ => show win1_1.index t (2 : Fin 3) * 64 + 1 * e.val = e.val; rw [h2]; omega

/-- The values' block at point t, at (u, t', e): the values at (t % 32, t', e). -/
theorem vblk_apply (c : Dev nD) (t : Fin cfg1.N) (g : Fin 32) (u : Fin 1) (t' : Fin 2048) (e : Fin 64)
    (hg : g.val = t.val % 32) :
    (iblk1 V c 2 t : S1x2048x64.Idx → EReal) (ix3 u t' e) = varr V c (ix3 g t' e) := by
  obtain ⟨-, -, -, -, -, -, h0, h1, h2, -⟩ := idx_facts1 t
  unfold iblk1
  rw [View.read_apply]
  show V c main_v22 _ = V c main_v22 _
  congr 1
  funext a
  apply Fin.ext
  match a with
  | ⟨0, _⟩ => show win1_2.index t (0 : Fin 3) * 1 + 1 * u.val = g.val; rw [h0]; omega
  | ⟨1, _⟩ => show win1_2.index t (1 : Fin 3) * 2048 + 1 * t'.val = t'.val; rw [h1]; omega
  | ⟨2, _⟩ => show win1_2.index t (2 : Fin 3) * 64 + 1 * e.val = e.val; rw [h2]; omega

/-- The mask's block at point t, at (r, t'): the mask at (512·(t / 32) + r, t'). -/
theorem mblk_apply (c : Dev nD) (t : Fin cfg1.N) (s : Fin 2048) (r : Fin 512) (t' : Fin 2048)
    (hs : s.val = t.val / 32 * 512 + r.val) :
    (iblk1 V c 3 t : S512x2048.Idx → EReal) (ix2 r t') = marr V c (ix2 s t') := by
  obtain ⟨-, -, -, -, -, -, -, -, -, h0, h1, -⟩ := idx_facts1 t
  unfold iblk1
  rw [View.read_apply]
  show V c main_arg1 _ = V c main_arg1 _
  congr 1
  funext a
  apply Fin.ext
  match a with
  | ⟨0, _⟩ => show win1_3.index t (0 : Fin 2) * 512 + 1 * r.val = s.val; rw [h0]; omega
  | ⟨1, _⟩ => show win1_3.index t (1 : Fin 2) * 2048 + 1 * t'.val = t'.val; rw [h1]; omega

/-! ### What a point writes back -/

/-- The body's accesses start at the block's origin. -/
theorem attn_off3_zero : (![0, 0, 0] : Fin 3 → Nat) = fun _ => 0 := funext fun a => by fin_cases a <;> rfl
theorem attn_off2_zero : (![0, 0] : Fin 2 → Nat) = fun _ => 0 := funext fun a => by fin_cases a <;> rfl

/-- Point t writes back block t of `attnArr`. -/
theorem flushed1_eq (c : Dev nD) (t : Fin cfg1.N) :
    (dat1 V c).flushed 4 t = ((cfg1.win 4).blk t).view.read (Elt Ideal) (attnArr V c) := by
  show (cfg1.win 4).cut (grid1.coords t) ((dat1 V c).after 4 t) = _
  rw [after1_4]
  unfold out1_4
  rw [View.canon_unit_zero attn_off3_zero]
  simp only [View.ld_unit_zero (S := S1x512x64) attn_off3_zero, View.ld_unit_zero (S := S1x2048x64) attn_off3_zero, View.ld_unit_zero (S := S512x2048) attn_off2_zero]
  funext j
  obtain ⟨u, r, d, rfl⟩ : ∃ (u : Fin 1) (r : Fin 512) (d : Fin 64), j = ix3 u r d := ⟨j 0, j 1, j 2, eq_ix3 j⟩
  obtain rfl : u = 0 := Subsingleton.elim _ _
  have ht : t.val < grid1.N := t.isLt
  rw [N_1] at ht
  obtain ⟨g, hg⟩ : ∃ g : Fin 32, g.val = t.val % 32 := ⟨⟨t.val % 32, Nat.mod_lt _ (by decide)⟩, rfl⟩
  obtain ⟨s, hs⟩ : ∃ s : Fin 2048, s.val = t.val / 32 * 512 + r.val := ⟨⟨t.val / 32 * 512 + r.val, by omega⟩, rfl⟩
  obtain ⟨-, -, -, -, -, -, -, -, -, -, -, h0, h1, h2⟩ := idx_facts1 t
  show k1_pay1 (F := Ideal) (iblk1 V c 0 t) (iblk1 V c 1 t) (iblk1 V c 2 t) (iblk1 V c 3 t) (ix3 (0 : Fin 1) r d)
    = attnArr V c (((cfg1.win 4).blk t).view.emb (ix3 (0 : Fin 1) r d))
  have hemb : ((cfg1.win 4).blk t).view.emb (ix3 (0 : Fin 1) r d) = ix3 g s d := by
    funext a
    apply Fin.ext
    match a with
    | ⟨0, _⟩ => show win1_4.index t (0 : Fin 3) * 1 + 1 * 0 = g.val; rw [h0]; omega
    | ⟨1, _⟩ => show win1_4.index t (1 : Fin 3) * 512 + 1 * r.val = s.val; rw [h1]; omega
    | ⟨2, _⟩ => show win1_4.index t (2 : Fin 3) * 64 + 1 * d.val = d.val; rw [h2]; omega
  rw [hemb]
  refine (pay1_apply _ _ _ _ r d).trans ?_
  have e0 : (fun e => (iblk1 V c 0 t : S1x512x64.Idx → EReal) (ix3 (0 : Fin 1) r e)) = fun e => qarr V c (ix3 g s e) :=
    funext fun e => qblk_apply V c t g s 0 r e hg hs
  have e1 : (fun t' e => (iblk1 V c 1 t : S1x2048x64.Idx → EReal) (ix3 (0 : Fin 1) t' e)) = fun t' e => karr V c (ix3 g t' e) :=
    funext fun t' => funext fun e => kblk_apply V c t g 0 t' e hg
  have e2 : (fun t' e => (iblk1 V c 2 t : S1x2048x64.Idx → EReal) (ix3 (0 : Fin 1) t' e)) = fun t' e => varr V c (ix3 g t' e) :=
    funext fun t' => funext fun e => vblk_apply V c t g 0 t' e hg
  have e3 : (fun t' => (iblk1 V c 3 t : S512x2048.Idx → EReal) (ix2 r t')) = fun t' => marr V c (ix2 s t') :=
    funext fun t' => mblk_apply V c t s r t' hs
  exact congrFun (congr (congr (congr (congrArg ctxRow e0) e1) e2) e3) d

/-! ### The blocks tile the result array -/

/-- An index of the result array is in point t's block iff each coordinate is in the block's range on its axis. -/
theorem mem_blk1 (t : Fin cfg1.N) (i : S32x2048x64.Idx) :
    i ∈ ((cfg1.win 4).blk t).view.set
      ↔ ∀ a : Fin 3, win1_4.index t a * S1x512x64.size a ≤ (i a).val ∧ (i a).val < win1_4.index t a * S1x512x64.size a + S1x512x64.size a := by
  show i ∈ ((View.whole main_v23).slice (win1_4.rect t)).set ↔ _
  rw [View.set_slice_whole, Rect.mem_set_unit]
  exact Iff.rfl

/-- Entry (g, s, d) lies in the block of point 32·(s / 512) + g. -/
theorem cover1 (i : S32x2048x64.Idx) :
    ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 64 := (i 2).isLt
  have hN : grid1.N = 128 := N_1
  obtain ⟨t, htv⟩ : ∃ t : Fin cfg1.N, t.val = (i 1).val / 512 * 32 + (i 0).val :=
    ⟨⟨(i 1).val / 512 * 32 + (i 0).val, by show _ < grid1.N; rw [hN]; omega⟩, rfl⟩
  obtain ⟨-, -, -, -, -, -, -, -, -, -, -, h0, h1, h2⟩ := idx_facts1 t
  refine ⟨t, flush1_4 t, ?_⟩
  rw [mem_blk1]
  intro a
  match a with
  | ⟨0, _⟩ =>
    show win1_4.index t (0 : Fin 3) * 1 ≤ (i 0).val ∧ (i 0).val < win1_4.index t (0 : Fin 3) * 1 + 1
    rw [h0]; omega
  | ⟨1, _⟩ =>
    show win1_4.index t (1 : Fin 3) * 512 ≤ (i 1).val ∧ (i 1).val < win1_4.index t (1 : Fin 3) * 512 + 512
    rw [h1]; omega
  | ⟨2, _⟩ =>
    show win1_4.index t (2 : Fin 3) * 64 ≤ (i 2).val ∧ (i 2).val < win1_4.index t (2 : Fin 3) * 64 + 64
    rw [h2]; omega

/-- The result array after the call is `attnArr`. -/
theorem final1_arr (c : Dev nD) : (dat1 V c).arrAt 4 cfg1.N = attnArr V c :=
  (dat1 V c).arrAt_eq_of_cover 4 (attnArr V c) (fun t _ => flushed1_eq V c t) cover1

/-- After the attention kernel call its result array holds, at (g, s, d), the attention of query row s of head-batch g. -/
theorem final1 (c : Dev nD) (g : Fin 32) (s : Fin 2048) (d : Fin 64) :
    ((dat1 V c).arrAt 4 cfg1.N : S32x2048x64.Idx → EReal) (ix3 g s d)
      = ctxRow (fun e => (V c main_v14 : S32x2048x64.Idx → EReal) (ix3 g s e))
          (fun t e => (V c main_v18 : S32x2048x64.Idx → EReal) (ix3 g t e))
          (fun t e => (V c main_v22 : S32x2048x64.Idx → EReal) (ix3 g t e))
          (fun t => (V c main_arg1 : S2048x2048.Idx → EReal) (ix2 s t)) d := by
  exact congrFun (final1_arr V c) (ix3 g s d)

end Cert.KernelIdeal.Val

end
-- ==== Proof.KI.Value2.lean ====
/-
  The third kernel call's result array, entry by entry.

  Grid point (a, b) of the 8 × 2 grid writes block (a, b) of the 4096 × 1024 result: the product of the merged attention
  outputs' row block a (512 × 1024) and the transposed output weights' column block b (1024 × 512). The blocks tile the
  array, each written once, so entry (i, o) of the result after the call is the sum over e of y[i, e] · w[e, o] of the
  arrays on entry.
-/
import proofs.«156318_j51161650430216_1_alg».proof.Proof.KI.Region2
import proofs.«156318_j51161650430216_1_alg».proof.Proof.KI.Pay
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem Cert.Attn
open Idealize.ShloMosaic.Pipeline (Dat)

variable (V : (c : Dev nD) → (b : Ref sig .tc) → Buf (Elt Ideal) ((c : Thread nD τ).loc b))

/-! ## Where each window's block sits -/

/-- The grid runs row-major with the second axis fastest, so point `t` has coordinates (t / 2, t % 2). The merged
    outputs' window sits at block (t / 2, 0), the weights' at block (0, t % 2), the result's at block (t / 2, t % 2). -/
theorem idx_facts2 : ∀ t : Fin cfg2.N, win2_0.index t (0 : Fin 2) = t.val / 2
    ∧ win2_0.index t (1 : Fin 2) = 0
    ∧ win2_1.index t (0 : Fin 2) = 0
    ∧ win2_1.index t (1 : Fin 2) = t.val % 2
    ∧ win2_2.index t (0 : Fin 2) = t.val / 2
    ∧ win2_2.index t (1 : Fin 2) = t.val % 2 :=
  (by decide +kernel : ∀ t : Fin grid2.N, _)

/-! ## The arrays on entry and their blocks, as arrays of extended reals -/

/-- The merged attention outputs y, 4096 × 1024, as the call finds them. -/
abbrev yarr2 (c : Dev nD) : S4096x1024.Idx → EReal := V c main_v27
/-- The transposed output weights w, 1024 × 1024, as the call finds them. -/
abbrev warr2 (c : Dev nD) : S1024x1024.Idx → EReal := V c main_v29
/-- The merged outputs' 512 × 1024 block at point `t`. -/
abbrev yblk2 (c : Dev nD) (t : Fin cfg2.N) : S512x1024.Idx → EReal := iblk2 V c 0 t
/-- The weights' 1024 × 512 block at point `t`. -/
abbrev wblk2 (c : Dev nD) (t : Fin cfg2.N) : S1024x512.Idx → EReal := iblk2 V c 1 t

/-- The product y · w by coordinates: entry (i, o) is the sum over e of y[i, e] · w[e, o]. -/
def prod2 (c : Dev nD) : Fin 4096 → Fin 1024 → EReal := fun i o =>
  ∑ e : Fin 1024, yarr2 V c (ix2 i e) * warr2 V c (ix2 e o)

/-- The same product as an array over the result's indices. -/
def G2 (c : Dev nD) : S4096x1024.Idx → EReal := fun i => prod2 V c (i 0) (i 1)

/-- Row r, column e of the merged outputs' block at point `t` is y[512·(t / 2) + r, e]: a block's coordinate on an axis is
    its block index times the block's extent plus the coordinate inside the block. -/
theorem yblk2_apply (c : Dev nD) (t : Fin cfg2.N) (r : Fin 512) (e : Fin 1024) (i : Fin 4096)
    (hi : i.val = t.val / 2 * 512 + r.val) : yblk2 V c t (ix2 r e) = yarr2 V c (ix2 i e) := by
  obtain ⟨e0, e1, -, -, -, -⟩ := idx_facts2 t
  unfold yblk2 yarr2 iblk2
  rw [View.read_apply]
  show V c main_v27 _ = V c main_v27 _
  congr 1
  funext a
  apply Fin.ext
  match a with
  | ⟨0, _⟩ => show win2_0.index t (0 : Fin 2) * 512 + 1 * r.val = i.val; rw [e0]; omega
  | ⟨1, _⟩ => show win2_0.index t (1 : Fin 2) * 1024 + 1 * e.val = e.val; rw [e1]; omega

/-- Row e, column s of the weights' block at point `t` is w[e, 512·(t % 2) + s]. -/
theorem wblk2_apply (c : Dev nD) (t : Fin cfg2.N) (e : Fin 1024) (s : Fin 512) (o : Fin 1024)
    (ho : o.val = t.val % 2 * 512 + s.val) : wblk2 V c t (ix2 e s) = warr2 V c (ix2 e o) := by
  obtain ⟨-, -, e0, e1, -, -⟩ := idx_facts2 t
  unfold wblk2 warr2 iblk2
  rw [View.read_apply]
  show V c main_v29 _ = V c main_v29 _
  congr 1
  funext a
  apply Fin.ext
  match a with
  | ⟨0, _⟩ => show win2_1.index t (0 : Fin 2) * 1024 + 1 * e.val = e.val; rw [e0]; omega
  | ⟨1, _⟩ => show win2_1.index t (1 : Fin 2) * 512 + 1 * s.val = o.val; rw [e1]; omega

/-! ## What a point writes back -/

/-- The body's accesses start at the origin of their blocks. -/
theorem hz2 : (![0, 0] : Fin 2 → Nat) = fun _ => 0 := funext fun a => by fin_cases a <;> rfl

/-- The product of the two blocks of point `t` at (r, s) is the product of the whole arrays at the place
    (512·(t / 2) + r, 512·(t % 2) + s) where the result's block puts (r, s): both sums run over the same e, and term by
    term the blocks' entries are the arrays' entries. -/
theorem pay2_at (c : Dev nD) (t : Fin cfg2.N) (j : S512x512.Idx) :
    k2_pay1 (F := Ideal) (yblk2 V c t) (wblk2 V c t) j = G2 V c (((cfg2.win 2).blk t).view.emb j) := by
  obtain ⟨-, -, -, -, e4, e5⟩ := idx_facts2 t
  obtain ⟨r, s, rfl⟩ : ∃ (r : Fin 512) (s : Fin 512), j = ix2 r s := ⟨j 0, j 1, eq_ix2 j⟩
  have h0 : ((((cfg2.win 2).blk t).view.emb (ix2 r s)) 0).val = t.val / 2 * 512 + r.val := by
    show win2_2.index t (0 : Fin 2) * 512 + 1 * r.val = _
    rw [e4]; omega
  have h1 : ((((cfg2.win 2).blk t).view.emb (ix2 r s)) 1).val = t.val % 2 * 512 + s.val := by
    show win2_2.index t (1 : Fin 2) * 512 + 1 * s.val = _
    rw [e5]; omega
  refine (pay2_apply _ _ r s).trans ?_
  unfold G2 prod2
  refine Finset.sum_congr rfl fun e _ => ?_
  exact congrArg₂ (· * ·) (yblk2_apply V c t r e _ h0) (wblk2_apply V c t e s _ h1)

/-- What point `t` writes back is block `t` of the product of the arrays on entry. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S512x1024) hz2, View.ld_unit_zero (S := S1024x512) hz2]
  funext j
  exact pay2_at V c t j

/-! ## The blocks tile the result -/

/-- An index of the result is in point `t`'s block iff on each axis it lies in the block's 512 consecutive coordinates. -/
theorem mem_blk2 (t : Fin cfg2.N) (i : S4096x1024.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v30).slice (win2_2.rect t)).set ↔ _
  rw [View.set_slice_whole, Rect.mem_set_unit]
  exact Iff.rfl

/-- Entry (i, o) of the result lies in the block of the point with coordinates (i / 512, o / 512), the point number
    2·(i / 512) + o / 512, and every point writes its block back. -/
theorem cover2 (i : S4096x1024.Idx) :
    ∃ t : Fin cfg2.N, (cfg2.win 2).flush t = true ∧ i ∈ ((cfg2.win 2).blk t).view.set := by
  have hN : grid2.N = 16 := N_2
  have h0 : (i 0).val < 4096 := idx2_lt0 i
  have h1 : (i 1).val < 1024 := idx2_lt1 i
  have hn : (i 0).val / 512 * 2 + (i 1).val / 512 < grid2.N := by rw [hN]; omega
  obtain ⟨-, -, -, -, e4, e5⟩ := idx_facts2 ⟨(i 0).val / 512 * 2 + (i 1).val / 512, hn⟩
  have e4' : win2_2.index ⟨(i 0).val / 512 * 2 + (i 1).val / 512, hn⟩ (0 : Fin 2) = ((i 0).val / 512 * 2 + (i 1).val / 512) / 2 := e4
  have e5' : win2_2.index ⟨(i 0).val / 512 * 2 + (i 1).val / 512, hn⟩ (1 : Fin 2) = ((i 0).val / 512 * 2 + (i 1).val / 512) % 2 := e5
  refine ⟨⟨(i 0).val / 512 * 2 + (i 1).val / 512, hn⟩, flush2_2 _, ?_⟩
  rw [mem_blk2]
  intro a
  match a with
  | ⟨0, _⟩ =>
    show win2_2.index ⟨(i 0).val / 512 * 2 + (i 1).val / 512, hn⟩ (0 : Fin 2) * 512 ≤ (i 0).val ∧ (i 0).val < win2_2.index ⟨(i 0).val / 512 * 2 + (i 1).val / 512, hn⟩ (0 : Fin 2) * 512 + 512
    rw [e4']; omega
  | ⟨1, _⟩ =>
    show win2_2.index ⟨(i 0).val / 512 * 2 + (i 1).val / 512, hn⟩ (1 : Fin 2) * 512 ≤ (i 1).val ∧ (i 1).val < win2_2.index ⟨(i 0).val / 512 * 2 + (i 1).val / 512, hn⟩ (1 : Fin 2) * 512 + 512
    rw [e5']; omega

/-! ## The result array -/

/-- After the call the result array is the product of the arrays on entry: every point writes back its block of the
    product and the blocks cover the array. -/
theorem arr2_eq (c : Dev nD) : (dat2 V c).arrAt 2 cfg2.N = G2 V c :=
  (dat2 V c).arrAt_eq_of_cover 2 (G2 V c) (fun t _ => flushed2_eq V c t) (cover2)

/-- After the third kernel call its result array holds, at (i, o), the sum over e of the entry arrays' y[i, e] · w[e, o]. -/
theorem final2 (c : Dev nD) (i : Fin 4096) (o : Fin 1024) :
    cur2 (n0 := 4096) (n1 := 1024) ((dat2 V c).arrAt 2 cfg2.N) i o
      = ∑ e : Fin 1024, cur2 (n0 := 4096) (n1 := 1024) (V c main_v27) i e * cur2 (n0 := 1024) (n1 := 1024) (V c main_v29) e o :=
  (congrArg (fun a => cur2 (n0 := 4096) (n1 := 1024) a i o) (arr2_eq V c)).trans rfl

end Cert.KernelIdeal.Val

end
-- ==== Proof.KI.Bridge.lean ====
/-
  The kernel program's result is the specification.

  Reading the run's boundary contents backwards from the return: the result is the third kernel call's product unflattened;
  that product is the merged attention outputs times Woᵀ; the merged outputs are the attention kernel's result with the heads
  laid side by side; the attention kernel's result is, row by row, the row attention of the queries, keys and values, which
  are the three column thirds of the first kernel call's product split into heads; and that product is the flattened
  activations times the stacked transposed weights, that is, the three linear projections. The mask and Wo reach their
  kernel calls as launched, since nothing before writes them. Everything is at the exact instance.
-/
import proofs.«156318_j51161650430216_1_alg».proof.Proof.KI.Run
import proofs.«156318_j51161650430216_1_alg».proof.Proof.KI.Host
import proofs.«156318_j51161650430216_1_alg».proof.Proof.KI.Value0
import proofs.«156318_j51161650430216_1_alg».proof.Proof.KI.Value1
import proofs.«156318_j51161650430216_1_alg».proof.Proof.KI.Value2

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem Cert.Attn

variable (m : (ℓ : Loc nD τ sig) → Buf (Elt Ideal) ℓ) (c : Dev nD)

/-! ## The arguments by coordinates -/

/-- The activations, the mask and the four weight matrices as launched, read by coordinates. -/
abbrev ax : Act := cur3 (n0 := 2) (n1 := 2048) (n2 := 1024) (m ((c : Thread nD τ).loc main_arg0))
abbrev amk : Msk := cur2 (n0 := 2048) (n1 := 2048) (m ((c : Thread nD τ).loc main_arg1))
abbrev aWq : Wt := cur2 (n0 := 1024) (n1 := 1024) (m ((c : Thread nD τ).loc main_arg2))
abbrev aWk : Wt := cur2 (n0 := 1024) (n1 := 1024) (m ((c : Thread nD τ).loc main_arg3))
abbrev aWv : Wt := cur2 (n0 := 1024) (n1 := 1024) (m ((c : Thread nD τ).loc main_arg4))
abbrev aWo : Wt := cur2 (n0 := 1024) (n1 := 1024) (m ((c : Thread nD τ).loc main_arg5))

/-! ## What reaches the later kernel calls unwritten -/

/-- The mask is as launched when the attention kernel is entered. -/
theorem Bd3_main_arg1 : Bd3 m c (Proc.devRef .tc main_arg1) = m ((c : Thread nD τ).loc main_arg1) :=
  calc Bd3 m c (Proc.devRef .tc main_arg1)
    _ = Bd2 m c (Proc.devRef .tc main_arg1) := StableHlo.after_of_writes_sub hostOps1 _ hostOps1_writes (r := main_arg1) (by decide)
    _ = Bd1 m c (Proc.devRef .tc main_arg1) := Bd2_of_ne m c main_arg1 (by decide)
    _ = Bd0 m c (Proc.devRef .tc main_arg1) := StableHlo.after_of_writes_sub hostOps0 _ hostOps0_writes (r := main_arg1) (by decide)
    _ = m ((c : Thread nD τ).loc main_arg1) := rfl

/-- Wo is as launched when the attention kernel is left. -/
theorem Bd4_main_arg5 : Bd4 m c (Proc.devRef .tc main_arg5) = m ((c : Thread nD τ).loc main_arg5) :=
  calc Bd4 m c (Proc.devRef .tc main_arg5)
    _ = Bd3 m c (Proc.devRef .tc main_arg5) := Bd4_of_ne m c main_arg5 (by decide)
    _ = Bd2 m c (Proc.devRef .tc main_arg5) := StableHlo.after_of_writes_sub hostOps1 _ hostOps1_writes (r := main_arg5) (by decide)
    _ = Bd1 m c (Proc.devRef .tc main_arg5) := Bd2_of_ne m c main_arg5 (by decide)
    _ = Bd0 m c (Proc.devRef .tc main_arg5) := StableHlo.after_of_writes_sub hostOps0 _ hostOps0_writes (r := main_arg5) (by decide)
    _ = m ((c : Thread nD τ).loc main_arg5) := rfl

/-! ## The first product: the three projections side by side -/

/-- The first kernel call's result at (i, j), over its entry contents. -/
theorem v7_eq (i : Fin 4096) (j : Fin 3072) :
    cur2 (n0 := 4096) (n1 := 3072) (Bd2 m c (Proc.devRef .tc main_v7)) i j
      = ∑ k : Fin 1024, cur2 (n0 := 4096) (n1 := 1024) (Bd1 m c (Proc.devRef .tc main_v1)) i k
          * cur2 (n0 := 1024) (n1 := 3072) (Bd1 m c (Proc.devRef .tc main_v6)) k j :=
  (congrArg (fun a => cur2 (n0 := 4096) (n1 := 3072) a i j) (Bd2_arr m c 2)).trans (final0 (At1 m) c i j)

/-- Row 2048·b + s of the flattened activations is x[b, s, ·]. -/
theorem v1_eq (b : Fin 2) (s : Fin 2048) (k : Fin 1024) :
    cur2 (n0 := 4096) (n1 := 1024) (Bd1 m c (Proc.devRef .tc main_v1))
        (⟨b.val * 2048 + s.val, by have := b.isLt; have := s.isLt; omega⟩ : Fin 4096) k = ax m c b s k := by
  have hb := b.isLt; have hs := s.isLt
  refine (host0_v1 (Bd0 m c) _ k).trans ?_
  show (m ((c : Thread nD τ).loc main_arg0) : S2x2048x1024.Idx → EReal) _ = (m ((c : Thread nD τ).loc main_arg0) : S2x2048x1024.Idx → EReal) (ix3 b s k)
  congr 1
  funext a
  match a with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

/-- The first third of the product's columns is the query projection, -/
theorem v7_q (b : Fin 2) (s : Fin 2048) (e : Fin 1024) :
    cur2 (n0 := 4096) (n1 := 3072) (Bd2 m c (Proc.devRef .tc main_v7))
        (⟨b.val * 2048 + s.val, by have := b.isLt; have := s.isLt; omega⟩ : Fin 4096)
        (⟨e.val, by have := e.isLt; omega⟩ : Fin 3072) = proj (ax m c) (aWq m c) b s e := by
  rw [v7_eq]
  exact Finset.sum_congr rfl fun k _ => by rw [v1_eq]; exact congrArg (_ * ·) (host0_v6_q (Bd0 m c) k e)
/-- the second the key projection, -/
theorem v7_k (b : Fin 2) (s : Fin 2048) (e : Fin 1024) :
    cur2 (n0 := 4096) (n1 := 3072) (Bd2 m c (Proc.devRef .tc main_v7))
        (⟨b.val * 2048 + s.val, by have := b.isLt; have := s.isLt; omega⟩ : Fin 4096)
        (⟨1024 + e.val, by have := e.isLt; omega⟩ : Fin 3072) = proj (ax m c) (aWk m c) b s e := by
  rw [v7_eq]
  exact Finset.sum_congr rfl fun k _ => by rw [v1_eq]; exact congrArg (_ * ·) (host0_v6_k (Bd0 m c) k e)
/-- the third the value projection. -/
theorem v7_v (b : Fin 2) (s : Fin 2048) (e : Fin 1024) :
    cur2 (n0 := 4096) (n1 := 3072) (Bd2 m c (Proc.devRef .tc main_v7))
        (⟨b.val * 2048 + s.val, by have := b.isLt; have := s.isLt; omega⟩ : Fin 4096)
        (⟨2048 + e.val, by have := e.isLt; omega⟩ : Fin 3072) = proj (ax m c) (aWv m c) b s e := by
  rw [v7_eq]
  exact Finset.sum_congr rfl fun k _ => by rw [v1_eq]; exact congrArg (_ * ·) (host0_v6_v (Bd0 m c) k e)

/-! ## Between the first and the second kernel call: heads -/

/-- Head-batch g is batch g / 16, head g % 16. -/
abbrev gb (g : Fin 32) : Fin 2 := ⟨g.val / 16, by have := g.isLt; omega⟩
abbrev gh (g : Fin 32) : Fin 16 := ⟨g.val % 16, Nat.mod_lt _ (by decide)⟩

/-- The three projections, which the attention of the specification is taken of. -/
abbrev pq : Act := proj (ax m c) (aWq m c)
abbrev pk : Act := proj (ax m c) (aWk m c)
abbrev pv : Act := proj (ax m c) (aWv m c)

/-- The attention kernel's queries at (g, s, d) are the query projection of batch g / 16, row s, column 64·(g % 16) + d, -/
theorem v14_eq (g : Fin 32) (s : Fin 2048) (d : Fin 64) :
    cur3 (n0 := 32) (n1 := 2048) (n2 := 64) (Bd3 m c (Proc.devRef .tc main_v14)) g s d = pq m c (gb g) s (col (gh g) d) :=
  (host1_v14 (Bd2 m c) g s d).trans (v7_q m c (gb g) s (col (gh g) d))
/-- its keys the key projection, -/
theorem v18_eq (g : Fin 32) (s : Fin 2048) (d : Fin 64) :
    cur3 (n0 := 32) (n1 := 2048) (n2 := 64) (Bd3 m c (Proc.devRef .tc main_v18)) g s d = pk m c (gb g) s (col (gh g) d) :=
  (host1_v18 (Bd2 m c) g s d).trans (v7_k m c (gb g) s (col (gh g) d))
/-- its values the value projection. -/
theorem v22_eq (g : Fin 32) (s : Fin 2048) (d : Fin 64) :
    cur3 (n0 := 32) (n1 := 2048) (n2 := 64) (Bd3 m c (Proc.devRef .tc main_v22)) g s d = pv m c (gb g) s (col (gh g) d) :=
  (host1_v22 (Bd2 m c) g s d).trans (v7_v m c (gb g) s (col (gh g) d))

/-! ## The attention kernel call -/

/-- Its result at (g, s, d) is the specification's attention output of batch g / 16, head g % 16. -/
theorem v23_eq (g : Fin 32) (s : Fin 2048) (d : Fin 64) :
    cur3 (n0 := 32) (n1 := 2048) (n2 := 64) (Bd4 m c (Proc.devRef .tc main_v23)) g s d
      = ctx (pq m c) (pk m c) (pv m c) (amk m c) (gb g) (gh g) s d := by
  refine (congrArg (fun a => cur3 (n0 := 32) (n1 := 2048) (n2 := 64) a g s d) (Bd4_arr m c 4)).trans ?_
  refine (final1 (At3 m) c g s d).trans ?_
  rw [ctx_eq_ctxRow]
  have hq : (fun e => (At3 m c main_v14 : S32x2048x64.Idx → EReal) (ix3 g s e)) = fun e => pq m c (gb g) s (col (gh g) e) :=
    funext fun e => v14_eq m c g s e
  have hk : (fun t e => (At3 m c main_v18 : S32x2048x64.Idx → EReal) (ix3 g t e)) = fun t e => pk m c (gb g) t (col (gh g) e) :=
    funext fun t => funext fun e => v18_eq m c g t e
  have hv : (fun t e => (At3 m c main_v22 : S32x2048x64.Idx → EReal) (ix3 g t e)) = fun t e => pv m c (gb g) t (col (gh g) e) :=
    funext fun t => funext fun e => v22_eq m c g t e
  have hm : (fun t => (At3 m c main_arg1 : S2048x2048.Idx → EReal) (ix2 s t)) = amk m c s :=
    funext fun t => congrFun (Bd3_main_arg1 m c) (ix2 s t)
  rw [hq, hk, hv, hm]

/-! ## Between the second and the third kernel call: the heads side by side again -/

theorem v27_eq (i : Fin 4096) (e : Fin 1024) :
    cur2 (n0 := 4096) (n1 := 1024) (Bd5 m c (Proc.devRef .tc main_v27)) i e
      = merge (pq m c) (pk m c) (pv m c) (amk m c) (⟨i.val / 2048, by have := i.isLt; omega⟩ : Fin 2)
          (⟨i.val % 2048, Nat.mod_lt _ (by decide)⟩ : Fin 2048) e := by
  have hi := i.isLt; have he := e.isLt
  refine (host2_v27 (Bd4 m c) i e).trans ?_
  refine (v23_eq m c _ _ _).trans ?_
  have h1 : gb (⟨i.val / 2048 * 16 + e.val / 64, by omega⟩ : Fin 32) = (⟨i.val / 2048, by omega⟩ : Fin 2) :=
    Fin.ext (by show (i.val / 2048 * 16 + e.val / 64) / 16 = i.val / 2048; omega)
  have h2 : gh (⟨i.val / 2048 * 16 + e.val / 64, by omega⟩ : Fin 32) = (⟨e.val / 64, by omega⟩ : Fin 16) :=
    Fin.ext (by show (i.val / 2048 * 16 + e.val / 64) % 16 = e.val / 64; omega)
  rw [h1, h2]
  rfl

theorem v29_eq (e o : Fin 1024) :
    cur2 (n0 := 1024) (n1 := 1024) (Bd5 m c (Proc.devRef .tc main_v29)) e o = aWo m c o e :=
  (host2_v29 (Bd4 m c) e o).trans (congrFun (Bd4_main_arg5 m c) (ix2 o e))

/-! ## The third kernel call: the output projection -/

theorem v30_eq (i : Fin 4096) (o : Fin 1024) :
    cur2 (n0 := 4096) (n1 := 1024) (Bd6 m c (Proc.devRef .tc main_v30)) i o
      = proj (merge (pq m c) (pk m c) (pv m c) (amk m c)) (aWo m c) (⟨i.val / 2048, by have := i.isLt; omega⟩ : Fin 2)
          (⟨i.val % 2048, Nat.mod_lt _ (by decide)⟩ : Fin 2048) o := by
  refine (congrArg (fun a => cur2 (n0 := 4096) (n1 := 1024) a i o) (Bd6_arr m c 2)).trans ?_
  refine (final2 (At5 m) c i o).trans ?_
  exact Finset.sum_congr rfl fun e _ => by rw [v27_eq, v29_eq]

/-! ## The result -/

theorem v31_eq (b : Fin 2) (s : Fin 2048) (o : Fin 1024) :
    cur3 (n0 := 2) (n1 := 2048) (n2 := 1024) (Bd7 m c (Proc.devRef .tc main_v31)) b s o
      = result (ax m c) (amk m c) (aWq m c) (aWk m c) (aWv m c) (aWo m c) b s o := by
  have hb := b.isLt; have hs := s.isLt
  refine (host3_v31 (Bd6 m c) b s o).trans ?_
  refine (v30_eq m c _ o).trans ?_
  have h1 : (⟨(b.val * 2048 + s.val) / 2048, by omega⟩ : Fin 2) = b := Fin.ext (by show (b.val * 2048 + s.val) / 2048 = b.val; omega)
  have h2 : (⟨(b.val * 2048 + s.val) % 2048, Nat.mod_lt _ (by decide)⟩ : Fin 2048) = s :=
    Fin.ext (by show (b.val * 2048 + s.val) % 2048 = s.val; omega)
  show proj _ _ (⟨(b.val * 2048 + s.val) / 2048, _⟩ : Fin 2) (⟨(b.val * 2048 + s.val) % 2048, _⟩ : Fin 2048) o = _
  rw [h1, h2]
  rfl

/-- At the return the result buffer holds the specification of the launch contents of the six arguments. -/
theorem kernel_value :
    (Bd7 m c (Proc.devRef .tc main_v31) : S2x2048x1024.Idx → EReal)
      = arr3 (result (ax m c) (amk m c) (aWq m c) (aWk m c) (aWv m c) (aWo m c)) :=
  ext3 fun b s o => v31_eq m c b s o

end Cert.KernelIdeal.Val

end
-- ==== Proof.RefValue.lean ====
/-
  The reference's result is the specification.

  The reference projects x by the four weight matrices, splits the model axis into 16 heads of 64, scores queries against
  keys, divides the scores by 8, adds the mask, exponentiates, normalises by the row sum plus ε, contracts with the values,
  lays the heads side by side again and projects by Wo. Read one operation at a time at an index, every stage is the
  corresponding stage of `Cert.Attn`; the one step that is not a re-indexing is that dividing by the float 8.0 is
  multiplying by the float 0.125 (`Cert.Attn.div_eight`), and that the host's sum starts from the float zero.

  Indices: a projected activation is read at [b, h, s, d] after the split [2,2048,1024] → [2,2048,16,64] and the exchange
  of the sequence and head axes; row-major, entry [b, s, h, d] of the split array is entry [b, s, 64h + d] of the flat one
  (`split_idx`), and entry [b, s, e] of the merged array is entry [b, s, e / 64, e % 64] of the split one (`merge_idx`).
-/
import proofs.«156318_j51161650430216_1_alg».proof.Proof.Gen.ReferenceIdeal.Read
import proofs.«156318_j51161650430216_1_alg».proof.Proof.Spec

noncomputable section

namespace Cert.ReferenceIdeal.RefValue

open Cert.ReferenceIdeal Cert.ReferenceIdeal.Gen Cert.ReferenceIdeal.Read Idealize.ShloMosaic Cert.Attn
open Idealize.ShloMosaic.ValueIdx

/-! ### The three projections, split into heads -/

/-- Row-major, entry [b, s, h, d] of the array split into heads is entry [b, s, 64h + d] of the flat one. -/
theorem split_idx (b : Fin 2) (s : Fin 2048) (h : Fin 16) (d : Fin 64) :
    idx_main_v1 (ix4 b s h d) = ix3 b s (col h d) := by
  funext a
  have hb := b.isLt; have hs := s.isLt; have hh := h.isLt; have hd := d.isLt
  match a with
  | ⟨0, _⟩ => exact Fin.ext (by show (((b.val * 2048 + s.val) * 16 + h.val) * 64 + d.val) / 2097152 = b.val; omega)
  | ⟨1, _⟩ => exact Fin.ext (by show (((b.val * 2048 + s.val) * 16 + h.val) * 64 + d.val) / 1024 % 2048 = s.val; omega)
  | ⟨2, _⟩ => exact Fin.ext (by show (((b.val * 2048 + s.val) * 16 + h.val) * 64 + d.val) % 1024 = h.val * 64 + d.val; omega)

/-- Exchanging the sequence and head axes reads [b, h, s, d] at [b, s, h, d]. -/
theorem swap_idx (b : Fin 2) (h : Fin 16) (s : Fin 2048) (d : Fin 64) :
    idx_main_v2 (ix4 b h s d) = ix4 b s h d := by
  funext a
  match a with
  | ⟨0, _⟩ => rfl
  | ⟨1, _⟩ => rfl
  | ⟨2, _⟩ => rfl
  | ⟨3, _⟩ => rfl

/-- The query projection read by head: entry d of head h at position s is column 64h + d of x·Wᵀ. -/
theorem q_eq (x0 : (⟨S2x2048x1024, .f32⟩ : BufTy).Contents (Elt Ideal)) (W : (⟨S1024x1024, .f32⟩ : BufTy).Contents (Elt Ideal))
    (b : Fin 2) (h : Fin 16) (s : Fin 2048) (d : Fin 64) :
    val_main_v2 (F := Ideal) x0 W (ix4 b h s d) = proj (cur3 x0) (cur2 W) b s (col h d) := by
  rw [val_main_v2_apply, swap_idx, val_main_v1_apply, split_idx, val_main_v0_apply]
  unfold proj cur3 cur2
  refine Finset.sum_congr rfl fun k _ => ?_
  congr 2
  · funext a
    match a with
    | ⟨0, _⟩ => rfl
    | ⟨1, _⟩ => rfl
    | ⟨2, _⟩ => rfl
  · funext a
    match a with
    | ⟨0, _⟩ => rfl
    | ⟨1, _⟩ => rfl

/-- The key projection is the same function of its weight as the query projection. -/
theorem k_eq (x0 : (⟨S2x2048x1024, .f32⟩ : BufTy).Contents (Elt Ideal)) (W : (⟨S1024x1024, .f32⟩ : BufTy).Contents (Elt Ideal))
    (b : Fin 2) (h : Fin 16) (s : Fin 2048) (d : Fin 64) :
    val_main_v5 (F := Ideal) x0 W (ix4 b h s d) = proj (cur3 x0) (cur2 W) b s (col h d) :=
  q_eq x0 W b h s d

/-- So is the value projection. -/
theorem v_eq (x0 : (⟨S2x2048x1024, .f32⟩ : BufTy).Contents (Elt Ideal)) (W : (⟨S1024x1024, .f32⟩ : BufTy).Contents (Elt Ideal))
    (b : Fin 2) (h : Fin 16) (s : Fin 2048) (d : Fin 64) :
    val_main_v8 (F := Ideal) x0 W (ix4 b h s d) = proj (cur3 x0) (cur2 W) b s (col h d) :=
  q_eq x0 W b h s d

/-! ### Scores, weights, denominator -/

/-- The unnormalised weight: the scaled score plus the mask, exponentiated. Dividing by the float 8.0 is multiplying by
    the float 0.125. -/
theorem w_eq (x0 : (⟨S2x2048x1024, .f32⟩ : BufTy).Contents (Elt Ideal)) (x1 : (⟨S2048x2048, .f32⟩ : BufTy).Contents (Elt Ideal))
    (x2 x3 : (⟨S1024x1024, .f32⟩ : BufTy).Contents (Elt Ideal)) (b : Fin 2) (h : Fin 16) (s t : Fin 2048) :
    val_main_v15 (F := Ideal) x0 x1 x2 x3 (ix4 b h s t)
      = wgt (proj (cur3 x0) (cur2 x2)) (proj (cur3 x0) (cur2 x3)) (cur2 x1) b h s t := by
  rw [val_main_v15_apply, val_main_v14_apply, val_main_v11_apply, val_main_v10_apply, val_main_cst_apply,
    val_main_v13_apply, val_main_v12_apply, val_main_v9_apply]
  rw [Ideal.hostUnary_exp_def, Ideal.hostDivf_def, Ideal.ofBits_def, div_eight, Ideal.addf_def]
  unfold wgt
  have hsum : (∑ k : Fin 64, val_main_v2 (F := Ideal) x0 x2 (lidx_main_v9 (ix4 b h s t) k)
        * val_main_v5 (F := Ideal) x0 x3 (ridx_main_v9 (ix4 b h s t) k))
      = ∑ d : Fin 64, proj (cur3 x0) (cur2 x2) b s (col h d) * proj (cur3 x0) (cur2 x3) b t (col h d) :=
    Finset.sum_congr rfl fun k _ => by
      have el : lidx_main_v9 (ix4 b h s t) k = ix4 b h s k := funext fun a => by
        match a with
        | ⟨0, _⟩ => rfl
        | ⟨1, _⟩ => rfl
        | ⟨2, _⟩ => rfl
        | ⟨3, _⟩ => rfl
      have er : ridx_main_v9 (ix4 b h s t) k = ix4 b h t k := funext fun a => by
        match a with
        | ⟨0, _⟩ => rfl
        | ⟨1, _⟩ => rfl
        | ⟨2, _⟩ => rfl
        | ⟨3, _⟩ => rfl
      rw [el, er, q_eq, k_eq]
  have hm : x1 (idx_main_v12 (idx_main_v13 (ix4 b h s t))) = cur2 x1 s t := by
    unfold cur2
    refine congrArg x1 (funext fun a => ?_)
    match a with
    | ⟨0, _⟩ => rfl
    | ⟨1, _⟩ => rfl
  rw [hsum, hm]

/-- The denominator: the host's sum over the keys starts from the float zero, then ε is added; the two broadcasts that
    keep and then stretch a unit axis read the same entry for every key. -/
theorem den_eq (x0 : (⟨S2x2048x1024, .f32⟩ : BufTy).Contents (Elt Ideal)) (x1 : (⟨S2048x2048, .f32⟩ : BufTy).Contents (Elt Ideal))
    (x2 x3 : (⟨S1024x1024, .f32⟩ : BufTy).Contents (Elt Ideal)) (b : Fin 2) (h : Fin 16) (s t : Fin 2048) :
    val_main_v20 (F := Ideal) x0 x1 x2 x3 (ix4 b h s t)
      = den (proj (cur3 x0) (cur2 x2)) (proj (cur3 x0) (cur2 x3)) (cur2 x1) b h s := by
  rw [val_main_v20_apply, val_main_v19_apply, val_main_v18_apply, val_main_cst_1_apply, val_main_v17_apply,
    val_main_v16_apply, val_main_cst_0_apply]
  rw [Ideal.ofBits_def, Ideal.ofBits_def, Ideal.ofBits_zero_f32, zero_add, Ideal.addf_def]
  unfold den
  refine congrArg (· + eps) (Finset.sum_congr rfl fun k _ => ?_)
  have e : idx_main_v16 (idx_main_v17 (idx_main_v20 (ix4 b h s t))) k = ix4 b h s k := funext fun a => by
    match a with
    | ⟨0, _⟩ => rfl
    | ⟨1, _⟩ => rfl
    | ⟨2, _⟩ => rfl
    | ⟨3, _⟩ => rfl
  rw [e, w_eq]

/-! ### The attention output, the merge of the heads and the output projection -/

/-- The attention output of one head: the normalised weights against the values. -/
theorem ctx_eq (x0 : (⟨S2x2048x1024, .f32⟩ : BufTy).Contents (Elt Ideal)) (x1 : (⟨S2048x2048, .f32⟩ : BufTy).Contents (Elt Ideal))
    (x2 x3 x4 : (⟨S1024x1024, .f32⟩ : BufTy).Contents (Elt Ideal)) (b : Fin 2) (h : Fin 16) (s : Fin 2048) (d : Fin 64) :
    val_main_v22 (F := Ideal) x0 x1 x2 x3 x4 (ix4 b h s d)
      = ctx (proj (cur3 x0) (cur2 x2)) (proj (cur3 x0) (cur2 x3)) (proj (cur3 x0) (cur2 x4)) (cur2 x1) b h s d := by
  rw [val_main_v22_apply]
  unfold ctx
  refine Finset.sum_congr rfl fun k _ => ?_
  have el : lidx_main_v22 (ix4 b h s d) k = ix4 b h s k := funext fun a => by
    match a with
    | ⟨0, _⟩ => rfl
    | ⟨1, _⟩ => rfl
    | ⟨2, _⟩ => rfl
    | ⟨3, _⟩ => rfl
  have er : ridx_main_v22 (ix4 b h s d) k = ix4 b h k d := funext fun a => by
    match a with
    | ⟨0, _⟩ => rfl
    | ⟨1, _⟩ => rfl
    | ⟨2, _⟩ => rfl
    | ⟨3, _⟩ => rfl
  rw [el, er, val_main_v21_apply, Ideal.hostDivf_def, w_eq, den_eq, v_eq]

/-- Row-major, entry [b, s, e] of the merged array is entry [b, s, e / 64, e % 64] of the array split into heads. -/
theorem merge_idx (b : Fin 2) (s : Fin 2048) (e : Fin 1024) :
    idx_main_v24 (ix3 b s e)
      = ix4 b s (⟨e.val / 64, by have := e.isLt; omega⟩ : Fin 16) (⟨e.val % 64, Nat.mod_lt _ (by decide)⟩ : Fin 64) := by
  funext a
  have hb := b.isLt; have hs := s.isLt; have he := e.isLt
  match a with
  | ⟨0, _⟩ => exact Fin.ext (by show ((b.val * 2048 + s.val) * 1024 + e.val) / 2097152 = b.val; omega)
  | ⟨1, _⟩ => exact Fin.ext (by show ((b.val * 2048 + s.val) * 1024 + e.val) / 1024 % 2048 = s.val; omega)
  | ⟨2, _⟩ => exact Fin.ext (by show ((b.val * 2048 + s.val) * 1024 + e.val) / 64 % 16 = e.val / 64; omega)
  | ⟨3, _⟩ => exact Fin.ext (by show ((b.val * 2048 + s.val) * 1024 + e.val) % 64 = e.val % 64; omega)

/-- The heads laid side by side again. -/
theorem merge_eq (x0 : (⟨S2x2048x1024, .f32⟩ : BufTy).Contents (Elt Ideal)) (x1 : (⟨S2048x2048, .f32⟩ : BufTy).Contents (Elt Ideal))
    (x2 x3 x4 : (⟨S1024x1024, .f32⟩ : BufTy).Contents (Elt Ideal)) (b : Fin 2) (s : Fin 2048) (e : Fin 1024) :
    val_main_v24 (F := Ideal) x0 x1 x2 x3 x4 (ix3 b s e)
      = merge (proj (cur3 x0) (cur2 x2)) (proj (cur3 x0) (cur2 x3)) (proj (cur3 x0) (cur2 x4)) (cur2 x1) b s e := by
  rw [val_main_v24_apply, merge_idx, val_main_v23_apply]
  have e' : idx_main_v23 (ix4 b s (⟨e.val / 64, by have := e.isLt; omega⟩ : Fin 16) (⟨e.val % 64, Nat.mod_lt _ (by decide)⟩ : Fin 64))
      = ix4 b (⟨e.val / 64, by have := e.isLt; omega⟩ : Fin 16) s (⟨e.val % 64, Nat.mod_lt _ (by decide)⟩ : Fin 64) := funext fun a => by
    match a with
    | ⟨0, _⟩ => rfl
    | ⟨1, _⟩ => rfl
    | ⟨2, _⟩ => rfl
    | ⟨3, _⟩ => rfl
  rw [e', ctx_eq]
  rfl

/-- The reference's result array, as a function of its six argument arrays, is `Cert.Attn.result` of them read by
    coordinates. -/
theorem result_eq (x0 : (⟨S2x2048x1024, .f32⟩ : BufTy).Contents (Elt Ideal)) (x1 : (⟨S2048x2048, .f32⟩ : BufTy).Contents (Elt Ideal))
    (x2 x3 x4 x5 : (⟨S1024x1024, .f32⟩ : BufTy).Contents (Elt Ideal)) :
    val_main_v25 (F := Ideal) x0 x1 x2 x3 x4 x5
      = arr3 (result (cur3 x0) (cur2 x1) (cur2 x2) (cur2 x3) (cur2 x4) (cur2 x5)) := by
  apply ext3
  intro b s o
  rw [val_main_v25_apply, arr3_ix3]
  unfold result
  show _ = ∑ d : Fin 1024, merge (proj (cur3 x0) (cur2 x2)) (proj (cur3 x0) (cur2 x3)) (proj (cur3 x0) (cur2 x4)) (cur2 x1) b s d
      * cur2 x5 o d
  refine Finset.sum_congr rfl fun k _ => ?_
  have el : lidx_main_v25 (ix3 b s o) k = ix3 b s k := funext fun a => by
    match a with
    | ⟨0, _⟩ => rfl
    | ⟨1, _⟩ => rfl
    | ⟨2, _⟩ => rfl
  have er : ridx_main_v25 (ix3 b s o) k = ix2 o k := funext fun a => by
    match a with
    | ⟨0, _⟩ => rfl
    | ⟨1, _⟩ => rfl
  rw [el, er, merge_eq]
  rfl

end Cert.ReferenceIdeal.RefValue

end
-- ==== Proof.lean ====
/-
  Fused multi-head attention in three kernel calls against its plain reference: the claim.

  The kernel program flattens the activations, multiplies them by the three transposed projection weights stacked side by
  side (first call), splits the product into queries, keys and values by head, runs the softmax attention per head-batch
  and query tile (second call: scores times the float 0.125, plus the mask, exponentiated, divided by the row sum plus ε,
  against the values), lays the heads side by side again and multiplies by the transposed output weights (third call).
  The reference computes the same layer with four separate projections and divides the scores by the float 8.0.
  Both programs run to their end from any memory, leaving their arguments as launched (the kernel program's run is
  assembled from its three kernel calls' runs over the contents at each boundary; the reference is host operations only);
  no operation of the kernel was rewritten for the exact reading; and at the exact instance both results are the one
  function `Cert.Attn.result` of the six arguments: every step on either side is a re-indexing or the same sum of the same
  products, except that multiplying by 0.125 and dividing by 8.0 agree on every extended real.
-/
import proofs.«156318_j51161650430216_1_alg».proof.Defs
import proofs.«156318_j51161650430216_1_alg».proof.Proof.Gen.Kernel
import proofs.«156318_j51161650430216_1_alg».proof.Proof.Gen.KernelIdeal
import proofs.«156318_j51161650430216_1_alg».proof.Proof.Gen.ReferenceIdeal
import proofs.«156318_j51161650430216_1_alg».proof.Proof.Gen.Pre_finite_inputs
import proofs.«156318_j51161650430216_1_alg».proof.Proof.Gen.ReferenceIdeal.Run
import proofs.«156318_j51161650430216_1_alg».proof.Proof.Gen.ReferenceIdeal.Read
import proofs.«156318_j51161650430216_1_alg».proof.Proof.K.Run
import proofs.«156318_j51161650430216_1_alg».proof.Proof.KI.Run
import proofs.«156318_j51161650430216_1_alg».proof.Proof.KI.Bridge
import proofs.«156318_j51161650430216_1_alg».proof.Proof.RefValue
import Idealize.ShloMosaic.Adequacy
import Idealize.ShloMosaic.Init

noncomputable section

namespace Cert.Proof

open Idealize.ShloMosaic Idealize.ShloMosaic.TcCoe Idealize.SL.Sem Cert.Attn

/-- The word-level kernel program runs and leaves its arguments as launched. -/
theorem frame_k : Cert.frame_Kernel := fun m ρ _ => Cert.Kernel.Fr.frame (F := Bits) m ρ

/-- So does the kernel program read at the exact instance. -/
theorem frame_ki : Cert.frame_KernelIdeal := fun m ρ _ => Cert.KernelIdeal.Fr.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- At the exact instance both programs end with the specification of the arguments in their result buffers. -/
theorem algebraic : Cert.algebraic_KernelIdeal_ReferenceIdeal := by
  intro m ρ m' ρ' _ hagree
  refine ⟨fun c => arr3 (result (Cert.KernelIdeal.Val.ax m c) (Cert.KernelIdeal.Val.amk m c) (Cert.KernelIdeal.Val.aWq m c)
      (Cert.KernelIdeal.Val.aWk m c) (Cert.KernelIdeal.Val.aWv m c) (Cert.KernelIdeal.Val.aWo m c)), ?_, ?_⟩
  · refine (θ_run Cert.KernelIdeal.defs _ _).mono (fun r h c => ?_) (Cert.KernelIdeal.Fr.run (F := Ideal) m ρ)
    exact ⟨(h c _ (Cert.KernelIdeal.Fr.mem_uc Cert.KernelIdeal.main_v31 (by decide))).trans (Cert.KernelIdeal.Val.kernel_value m c),
      (h c _ (Cert.KernelIdeal.Fr.mem_uc Cert.KernelIdeal.main_arg0 (by decide))).trans (Cert.KernelIdeal.Fr.Bd7_main_arg0 m c),
      (h c _ (Cert.KernelIdeal.Fr.mem_uc Cert.KernelIdeal.main_arg1 (by decide))).trans (Cert.KernelIdeal.Fr.Bd7_main_arg1 m c),
      (h c _ (Cert.KernelIdeal.Fr.mem_uc Cert.KernelIdeal.main_arg2 (by decide))).trans (Cert.KernelIdeal.Fr.Bd7_main_arg2 m c),
      (h c _ (Cert.KernelIdeal.Fr.mem_uc Cert.KernelIdeal.main_arg3 (by decide))).trans (Cert.KernelIdeal.Fr.Bd7_main_arg3 m c),
      (h c _ (Cert.KernelIdeal.Fr.mem_uc Cert.KernelIdeal.main_arg4 (by decide))).trans (Cert.KernelIdeal.Fr.Bd7_main_arg4 m c),
      (h c _ (Cert.KernelIdeal.Fr.mem_uc Cert.KernelIdeal.main_arg5 (by decide))).trans (Cert.KernelIdeal.Fr.Bd7_main_arg5 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
